-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S250000 : Shape := ⟨1, ![250000]⟩
abbrev S500000 : Shape := ⟨1, ![500000]⟩
abbrev S750000 : Shape := ⟨1, ![750000]⟩
abbrev S64x64 : Shape := ⟨2, ![64, 64]⟩
abbrev S64 : Shape := ⟨1, ![64]⟩
abbrev S128x128 : Shape := ⟨2, ![128, 128]⟩
abbrev S128 : Shape := ⟨1, ![128]⟩
abbrev S192x192 : Shape := ⟨2, ![192, 192]⟩
abbrev S192 : Shape := ⟨1, ![192]⟩
abbrev S128x64 : Shape := ⟨2, ![128, 64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_
  bcast_S_S128x64 : S_.BroadcastsInDim S128x64 (![] : Fin 0 → Fin S128x64.rank)
  reducesTo_S128x64_S_d0_1 : S128x64.ReducesTo [0, 1] S_

variable [Facts]

def fn_part4 {F : FTy → Type} [FloatOps F] (main_arg17 : FVec F S128 .f32) (main_arg18 : FVec F S128x64 .f32) (main_arg19 : FVec F S64 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg18
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg19
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg14 : FVec F S192x192 .f32) (main_arg15 : FVec F S192 .f32) (main_arg16 : FVec F S128x128 .f32) (main_arg17 : FVec F S128 .f32) (main_arg18 : FVec F S128x64 .f32) (main_arg19 : FVec F S64 .f32) (main_v48 : IVec S_ 1) (main_v49 : FVec F S192 .f32) (main_v50 : FVec F S192 .f32) : IVec S_ 1 :=
  let main_v51 : IVec S192 1 := cmpf .olt main_v49 main_v50
  let main_c_19 : IVec S_ 1 := constantI S_ 1 1#1
  let main_v52 : IVec S_ 1 := (fun x v => Host.reduce IntOp.andi x v reducesTo_S192_S_d0 h_S_) main_v51 main_c_19
  let main_v53 : IVec S_ 1 := andi main_v48 main_v52
  let main_v54 : FVec F S192x192 .f32 := Host.absf main_arg14
  let main_cst_20 : FVec F S_ .f32 := constant S_ .f32 0x7F800000#32
  let main_v55 : FVec F S192x192 .f32 := broadcastInDim S192x192 ![] bcast_S_S192x192 main_cst_20
  let main_v56 : IVec S192x192 1 := cmpf .olt main_v54 main_v55
  let main_c_21 : IVec S_ 1 := constantI S_ 1 1#1
  let main_v57 : IVec S_ 1 := (fun x v => Host.reduce IntOp.andi x v reducesTo_S192x192_S_d0_1 h_S_) main_v56 main_c_21
  let main_v58 : IVec S_ 1 := andi main_v53 main_v57
  let main_v59 : FVec F S192 .f32 := Host.absf main_arg15
  let main_cst_22 : FVec F S_ .f32 := constant S_ .f32 0x7F800000#32
  let main_v60 : FVec F S192 .f32 := broadcastInDim S192 ![] bcast_S_S192 main_cst_22
  let main_v61 : IVec S192 1 := cmpf .olt main_v59 main_v60
  let main_c_23 : IVec S_ 1 := constantI S_ 1 1#1
  let main_v62 : IVec S_ 1 := (fun x v => Host.reduce IntOp.andi x v reducesTo_S192_S_d0 h_S_) main_v61 main_c_23
  let main_v63 : IVec S_ 1 := andi main_v58 main_v62
  let main_v64 : FVec F S128x128 .f32 := Host.absf main_arg16
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg17 main_arg18 main_arg19 main_v63 main_v67

def fn_part2 {F : FTy → Type} [FloatOps F] (main_arg10 : FVec F S128x128 .f32) (main_arg11 : FVec F S128 .f32) (main_arg12 : FVec F S192x192 .f32) (main_arg13 : FVec F S192 .f32) (main_arg14 : FVec F S192x192 .f32) (main_arg15 : FVec F S192 .f32) (main_arg16 : FVec F S128x128 .f32) (main_arg17 : FVec F S128 .f32) (main_arg18 : FVec F S128x64 .f32) (main_arg19 : FVec F S64 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S192x192 .f32 := Host.absf main_arg12
  let main_cst_16 : FVec F S_ .f32 := constant S_ .f32 0x7F800000#32
  let main_v45 : FVec F S192x192 .f32 := broadcastInDim S192x192 ![] bcast_S_S192x192 main_cst_16
  let main_v46 : IVec S192x192 1 := cmpf .olt main_v44 main_v45
  let main_c_17 : IVec S_ 1 := constantI S_ 1 1#1
  let main_v47 : IVec S_ 1 := (fun x v => Host.reduce IntOp.andi x v reducesTo_S192x192_S_d0_1 h_S_) main_v46 main_c_17
  let main_v48 : IVec S_ 1 := andi main_v43 main_v47
  let main_v49 : FVec F S192 .f32 := Host.absf main_arg13
  let main_cst_18 : FVec F S_ .f32 := constant S_ .f32 0x7F800000#32
  let main_v50 : FVec F S192 .f32 := broadcastInDim S192 ![] bcast_S_S192 main_cst_18
  fn_part3 (F := F) main_arg14 main_arg15 main_arg16 main_arg17 main_arg18 main_arg19 main_v48 main_v49 main_v50

def fn_part1 {F : FTy → Type} [FloatOps F] (main_arg7 : FVec F S64 .f32) (main_arg8 : FVec F S128x128 .f32) (main_arg9 : FVec F S128 .f32) (main_arg10 : FVec F S128x128 .f32) (main_arg11 : FVec F S128 .f32) (main_arg12 : FVec F S192x192 .f32) (main_arg13 : FVec F S192 .f32) (main_arg14 : FVec F S192x192 .f32) (main_arg15 : FVec F S192 .f32) (main_arg16 : FVec F S128x128 .f32) (main_arg17 : FVec F S128 .f32) (main_arg18 : FVec F S128x64 .f32) (main_arg19 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_v33

def fn {F : FTy → Type} [FloatOps F] (main_arg0 : FVec F S200000x64 .f32) (main_arg1 : IVec S250000 32) (main_arg2 : IVec S500000 32) (main_arg3 : IVec S750000 32) (main_arg4 : FVec F S64x64 .f32) (main_arg5 : FVec F S64 .f32) (main_arg6 : FVec F S64x64 .f32) (main_arg7 : FVec F S64 .f32) (main_arg8 : FVec F S128x128 .f32) (main_arg9 : FVec F S128 .f32) (main_arg10 : FVec F S128x128 .f32) (main_arg11 : FVec F S128 .f32) (main_arg12 : FVec F S192x192 .f32) (main_arg13 : FVec F S192 .f32) (main_arg14 : FVec F S192x192 .f32) (main_arg15 : FVec F S192 .f32) (main_arg16 : FVec F S128x128 .f32) (main_arg17 : FVec F S128 .f32) (main_arg18 : FVec F S128x64 .f32) (main_arg19 : FVec F S64 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_arg10 main_arg11 main_arg12 main_arg13 main_arg14 main_arg15 main_arg16 main_arg17 main_arg18 main_arg19 main_v13 main_v16
-- ==== Kernel.lean ====
abbrev S200000x64 : Shape := ⟨2, ![200000, 64]⟩
abbrev S250000 : Shape := ⟨1, ![250000]⟩
abbrev S500000 : Shape := ⟨1, ![500000]⟩
abbrev S750000 : Shape := ⟨1, ![750000]⟩
abbrev S64x64 : Shape := ⟨2, ![64, 64]⟩
abbrev S64 : Shape := ⟨1, ![64]⟩
abbrev S128x128 : Shape := ⟨2, ![128, 128]⟩
abbrev S128 : Shape := ⟨1, ![128]⟩
abbrev S192x192 : Shape := ⟨2, ![192, 192]⟩
abbrev S192 : Shape := ⟨1, ![192]⟩
abbrev S128x64 : Shape := ⟨2, ![128, 64]⟩
abbrev S_ : Shape := ⟨0, ![]⟩
abbrev S250000x1 : Shape := ⟨2, ![250000, 1]⟩
abbrev S250000x64 : Shape := ⟨2, ![250000, 64]⟩
abbrev S1x64 : Shape := ⟨2, ![1, 64]⟩
abbrev S5000x64 : Shape := ⟨2, ![5000, 64]⟩
abbrev S500000x1 : Shape := ⟨2, ![500000, 1]⟩
abbrev S500000x64 : Shape := ⟨2, ![500000, 64]⟩
abbrev S250000x128 : Shape := ⟨2, ![250000, 128]⟩
abbrev S1x128 : Shape := ⟨2, ![1, 128]⟩
abbrev S5000x128 : Shape := ⟨2, ![5000, 128]⟩
abbrev S750000x1 : Shape := ⟨2, ![750000, 1]⟩
abbrev S750000x64 : Shape := ⟨2, ![750000, 64]⟩
abbrev S250000x192 : Shape := ⟨2, ![250000, 192]⟩
abbrev S1x192 : Shape := ⟨2, ![1, 192]⟩
abbrev S5000x192 : Shape := ⟨2, ![5000, 192]⟩
abbrev S64x128 : Shape := ⟨2, ![64, 128]⟩
abbrev S8000x64 : Shape := ⟨2, ![8000, 64]⟩
abbrev S8000x128 : Shape := ⟨2, ![8000, 128]⟩

abbrev nBuf : Space → Nat
  | .hbm => 94
  | .vmem => 35
  | .smem => 0
  | _ => 0

abbrev bufTy : (tb : Table) → Fin (tcTables nBuf tb) → BufTy
  | .hbm, ⟨0, _⟩ => ⟨S200000x64, .f32⟩
  | .hbm, ⟨1, _⟩ => ⟨S250000, .i32⟩
  | .hbm, ⟨2, _⟩ => ⟨S500000, .i32⟩
  | .hbm, ⟨3, _⟩ => ⟨S750000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S192x192, .f32⟩
  | .hbm, ⟨13, _⟩ => ⟨S192, .f32⟩
  | .hbm, ⟨14, _⟩ => ⟨S192x192, .f32⟩
  | .hbm, ⟨15, _⟩ => ⟨S192, .f32⟩
  | .hbm, ⟨16, _⟩ => ⟨S128x128, .f32⟩
  | .hbm, ⟨17, _⟩ => ⟨S128, .f32⟩
  | .hbm, ⟨18, _⟩ => ⟨S128x64, .f32⟩
  | .hbm, ⟨19, _⟩ => ⟨S64, .f32⟩
  | .hbm, ⟨20, _⟩ => ⟨S_, .f32⟩
  | .hbm, ⟨21, _⟩ => ⟨S200000x64, .f32⟩
  | .hbm, ⟨22, _⟩ => ⟨S_, .i32⟩
  | .hbm, ⟨23, _⟩ => ⟨S250000, .i32⟩
  | .hbm, ⟨24, _⟩ => ⟨S250000, .i1⟩
  | .hbm, ⟨25, _⟩ => ⟨S_, .i32⟩
  | .hbm, ⟨26, _⟩ => ⟨S250000, .i32⟩
  | .hbm, ⟨27, _⟩ => ⟨S250000, .i32⟩
  | .hbm, ⟨28, _⟩ => ⟨S250000, .i32⟩
  | .hbm, ⟨29, _⟩ => ⟨S250000x1, .i32⟩
  | .hbm, ⟨30, _⟩ => ⟨S250000x64, .f32⟩
  | .hbm, ⟨31, _⟩ => ⟨S1x64, .f32⟩
  | .hbm, ⟨32, _⟩ => ⟨S1x64, .f32⟩
  | .hbm, ⟨33, _⟩ => ⟨S250000x64, .f32⟩
  | .hbm, ⟨34, _⟩ => ⟨S_, .i32⟩
  | .hbm, ⟨35, _⟩ => ⟨S250000, .i32⟩
  | .hbm, ⟨36, _⟩ => ⟨S250000, .i1⟩
  | .hbm, ⟨37, _⟩ => ⟨S_, .i32⟩
  | .hbm, ⟨38, _⟩ => ⟨S250000, .i32⟩
  | .hbm, ⟨39, _⟩ => ⟨S250000, .i32⟩
  | .hbm, ⟨40, _⟩ => ⟨S250000, .i32⟩
  | .hbm, ⟨41, _⟩ => ⟨S250000x1, .i32⟩
  | .hbm, ⟨42, _⟩ => ⟨S200000x64, .f32⟩
  | .hbm, ⟨43, _⟩ => ⟨S_, .i32⟩
  | .hbm, ⟨44, _⟩ => ⟨S500000, .i32⟩
  | .hbm, ⟨45, _⟩ => ⟨S500000, .i1⟩
  | .hbm, ⟨46, _⟩ => ⟨S_, .i32⟩
  | .hbm, ⟨47, _⟩ => ⟨S500000, .i32⟩
  | .hbm, ⟨48, _⟩ => ⟨S500000, .i32⟩
  | .hbm, ⟨49, _⟩ => ⟨S500000, .i32⟩
  | .hbm, ⟨50, _⟩ => ⟨S500000x1, .i32⟩
  | .hbm, ⟨51, _⟩ => ⟨S500000x64, .f32⟩
  | .hbm, ⟨52, _⟩ => ⟨S250000x128, .f32⟩
  | .hbm, ⟨53, _⟩ => ⟨S1x128, .f32⟩
  | .hbm, ⟨54, _⟩ => ⟨S1x128, .f32⟩
  | .hbm, ⟨55, _⟩ => ⟨S250000x128, .f32⟩
  | .hbm, ⟨56, _⟩ => ⟨S500000x64, .f32⟩
  | .hbm, ⟨57, _⟩ => ⟨S_, .i32⟩
  | .hbm, ⟨58, _⟩ => ⟨S500000, .i32⟩
  | .hbm, ⟨59, _⟩ => ⟨S500000, .i1⟩
  | .hbm, ⟨60, _⟩ => ⟨S_, .i32⟩
  | .hbm, ⟨61, _⟩ => ⟨S500000, .i32⟩
  | .hbm, ⟨62, _⟩ => ⟨S500000, .i32⟩
  | .hbm, ⟨63, _⟩ => ⟨S500000, .i32⟩
  | .hbm, ⟨64, _⟩ => ⟨S500000x1, .i32⟩
  | .hbm, ⟨65, _⟩ => ⟨S200000x64, .f32⟩
  | .hbm, ⟨66, _⟩ => ⟨S_, .i32⟩
  | .hbm, ⟨67, _⟩ => ⟨S750000, .i32⟩
  | .hbm, ⟨68, _⟩ => ⟨S750000, .i1⟩
  | .hbm, ⟨69, _⟩ => ⟨S_, .i32⟩
  | .hbm, ⟨70, _⟩ => ⟨S750000, .i32⟩
  | .hbm, ⟨71, _⟩ => ⟨S750000, .i32⟩
  | .hbm, ⟨72, _⟩ => ⟨S750000, .i32⟩
  | .hbm, ⟨73, _⟩ => ⟨S750000x1, .i32⟩
  | .hbm, ⟨74, _⟩ => ⟨S750000x64, .f32⟩
  | .hbm, ⟨75, _⟩ => ⟨S250000x192, .f32⟩
  | .hbm, ⟨76, _⟩ => ⟨S1x192, .f32⟩
  | .hbm, ⟨77, _⟩ => ⟨S1x192, .f32⟩
  | .hbm, ⟨78, _⟩ => ⟨S250000x192, .f32⟩
  | .hbm, ⟨79, _⟩ => ⟨S750000x64, .f32⟩
  | .hbm, ⟨80, _⟩ => ⟨S_, .i32⟩
  | .hbm, ⟨81, _⟩ => ⟨S750000, .i32⟩
  | .hbm, ⟨82, _⟩ => ⟨S750000, .i1⟩
  | .hbm, ⟨83, _⟩ => ⟨S_, .i32⟩
  | .hbm, ⟨84, _⟩ => ⟨S750000, .i32⟩
  | .hbm, ⟨85, _⟩ => ⟨S750000, .i32⟩
  | .hbm, ⟨86, _⟩ => ⟨S750000, .i32⟩
  | .hbm, ⟨87, _⟩ => ⟨S750000x1, .i32⟩
  | .hbm, ⟨88, _⟩ => ⟨S200000x64, .f32⟩
  | .hbm, ⟨89, _⟩ => ⟨S64x128, .f32⟩
  | .hbm, ⟨90, _⟩ => ⟨S64x128, .f32⟩
  | .hbm, ⟨91, _⟩ => ⟨S1x128, .f32⟩
  | .hbm, ⟨92, _⟩ => ⟨S1x64, .f32⟩
  | .hbm, ⟨93, _⟩ => ⟨S200000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x192, .f32⟩
  | .local _ .vmem, ⟨17, _⟩ => ⟨S5000x192, .f32⟩
  | .local _ .vmem, ⟨18, _⟩ => ⟨S192x192, .f32⟩
  | .local _ .vmem, ⟨19, _⟩ => ⟨S1x192, .f32⟩
  | .local _ .vmem, ⟨20, _⟩ => ⟨S192x192, .f32⟩
  | .local _ .vmem, ⟨21, _⟩ => ⟨S1x192, .f32⟩
  | .local _ .vmem, ⟨22, _⟩ => ⟨S5000x192, .f32⟩
  | .local _ .vmem, ⟨23, _⟩ => ⟨S5000x192, .f32⟩
  | .local _ .vmem, ⟨24, _⟩ => ⟨S8000x64, .f32⟩
  | .local _ .vmem, ⟨25, _⟩ => ⟨S8000x64, .f32⟩
  | .local _ .vmem, ⟨26, _⟩ => ⟨S8000x64, .f32⟩
  | .local _ .vmem, ⟨27, _⟩ => ⟨S8000x64, .f32⟩
  | .local _ .vmem, ⟨28, _⟩ => ⟨S64x128, .f32⟩
  | .local _ .vmem, ⟨29, _⟩ => ⟨S64x128, .f32⟩
  | .local _ .vmem, ⟨30, _⟩ => ⟨S1x128, .f32⟩
  | .local _ .vmem, ⟨31, _⟩ => ⟨S128x64, .f32⟩
  | .local _ .vmem, ⟨32, _⟩ => ⟨S1x64, .f32⟩
  | .local _ .vmem, ⟨33, _⟩ => ⟨S8000x64, .f32⟩
  | .local _ .vmem, ⟨34, _⟩ => ⟨S8000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_c : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_3 : Ref sig .tc := ⟨.hbm, 43, rfl⟩
abbrev main_v18 : Ref sig .tc := ⟨.hbm, 44, rfl⟩
abbrev main_v19 : Ref sig .tc := ⟨.hbm, 45, rfl⟩
abbrev main_c_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_5 : Ref sig .tc := ⟨.hbm, 57, rfl⟩
abbrev main_v30 : Ref sig .tc := ⟨.hbm, 58, rfl⟩
abbrev main_v31 : Ref sig .tc := ⟨.hbm, 59, rfl⟩
abbrev main_c_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_7 : Ref sig .tc := ⟨.hbm, 66, rfl⟩
abbrev main_v37 : Ref sig .tc := ⟨.hbm, 67, rfl⟩
abbrev main_v38 : Ref sig .tc := ⟨.hbm, 68, rfl⟩
abbrev main_c_8 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_c_9 : Ref sig .tc := ⟨.hbm, 80, rfl⟩
abbrev main_v49 : Ref sig .tc := ⟨.hbm, 81, rfl⟩
abbrev main_v50 : Ref sig .tc := ⟨.hbm, 82, rfl⟩
abbrev main_c_10 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg7_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem7_1 : DmaSem sig := 34

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S192x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S192x192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x192 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x192 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S8000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bcast_S_S200000x64 : S_.BroadcastsInDim S200000x64 (![] : Fin 0 → Fin S200000x64.rank)
  bcast_S_S250000 : S_.BroadcastsInDim S250000 (![] : Fin 0 → Fin S250000.rank)
  bcast_S250000_S250000x1_0 : S250000.BroadcastsInDim S250000x1 (![0] : Fin 1 → Fin S250000x1.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S500000 : S_.BroadcastsInDim S500000 (![] : Fin 0 → Fin S500000.rank)
  bcast_S500000_S500000x1_0 : S500000.BroadcastsInDim S500000x1 (![0] : Fin 1 → Fin S500000x1.rank)
  shapeCasts_S500000x64_S250000x128 : S500000x64.ShapeCasts S250000x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S250000x128_S500000x64 : S250000x128.ShapeCasts S500000x64
  bcast_S_S750000 : S_.BroadcastsInDim S750000 (![] : Fin 0 → Fin S750000.rank)
  bcast_S750000_S750000x1_0 : S750000.BroadcastsInDim S750000x1 (![0] : Fin 1 → Fin S750000x1.rank)
  shapeCasts_S750000x64_S250000x192 : S750000x64.ShapeCasts S250000x192
  shapeCasts_S192_S1x192 : S192.ShapeCasts S1x192
  inb_S5000x192_S5000x192_0_0 : ∀ a, (![0, 0] : Fin 2 → Nat) a + S5000x192.size a ≤ S5000x192.size a
  h_S5000x192 : 0 < S5000x192.numel
  shapeCasts_S5000x192_S5000x192 : S5000x192.ShapeCasts S5000x192
  inb_S192x192_S192x192_0_0 : ∀ a, (![0, 0] : Fin 2 → Nat) a + S192x192.size a ≤ S192x192.size a
  h_S192x192 : 0 < S192x192.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5000x192 : S1x192.Broadcasts S5000x192
  shapeCasts_S250000x192_S750000x64 : S250000x192.ShapeCasts S750000x64
  slices_S128x128_S64x128_0_0 : S128x128.Slices ![0, 0] S64x128
  slices_S128x128_S64x128_64_0 : S128x128.Slices ![64, 0] S64x128
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  broadcasts_S1x64_S8000x64 : S1x64.Broadcasts S8000x64
  gather_S200000x64_S250000x1_S250000x64_1_0_n_n_0_1_164_wf : GatherDims.WF S200000x64 S250000x1 S250000x64 [1] [0] [] [0] [] 1 ![1, 64]
  dot_S5000x64_S64x64_S5000x64_1_0_0_1_n_n_wf : DotDims.WF S5000x64 S64x64 S5000x64 [1] [0] [0] [1] [] []
  scatter_S200000x64_S250000x1_S250000x64_1_0_0_1_wf : ScatterDims.WF S200000x64 S250000x1 S250000x64 [1] [0] [0] 1
  gather_S200000x64_S500000x1_S500000x64_1_0_n_n_0_1_164_wf : GatherDims.WF S200000x64 S500000x1 S500000x64 [1] [0] [] [0] [] 1 ![1, 64]
  dot_S5000x128_S128x128_S5000x128_1_0_0_1_n_n_wf : DotDims.WF S5000x128 S128x128 S5000x128 [1] [0] [0] [1] [] []
  scatter_S200000x64_S500000x1_S500000x64_1_0_0_1_wf : ScatterDims.WF S200000x64 S500000x1 S500000x64 [1] [0] [0] 1
  gather_S200000x64_S750000x1_S750000x64_1_0_n_n_0_1_164_wf : GatherDims.WF S200000x64 S750000x1 S750000x64 [1] [0] [] [0] [] 1 ![1, 64]
  dot_S5000x192_S192x192_S5000x192_1_0_0_1_n_n_wf : DotDims.WF S5000x192 S192x192 S5000x192 [1] [0] [0] [1] [] []
  scatter_S200000x64_S750000x1_S750000x64_1_0_0_1_wf : ScatterDims.WF S200000x64 S750000x1 S750000x64 [1] [0] [0] 1
  dot_S8000x64_S64x128_S8000x128_1_0_0_1_n_n_wf : DotDims.WF S8000x64 S64x128 S8000x128 [1] [0] [0] [1] [] []
  dot_S8000x128_S128x64_S8000x64_1_0_0_1_n_n_wf : DotDims.WF S8000x128 S128x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S250000x64.size a
  hwx0_0 : ∀ i : grid0.Coords, EltTy.bits .f32 = 32 ∨ (Rect.block (s := S250000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S250000x64.size a
  hwx0_5 : ∀ i : grid0.Coords, EltTy.bits .f32 = 32 ∨ (Rect.block (s := S250000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S250000x128.size a
  hwx1_0 : ∀ i : grid1.Coords, EltTy.bits .f32 = 32 ∨ (Rect.block (s := S250000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S250000x128.size a
  hwx1_5 : ∀ i : grid1.Coords, EltTy.bits .f32 = 32 ∨ (Rect.block (s := S250000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x192.size a ≤ S250000x192.size a
  hwx2_0 : ∀ i : grid2.Coords, EltTy.bits .f32 = 32 ∨ (Rect.block (s := S250000x192) S5000x192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S192x192.size a ≤ S192x192.size a
  hwx2_1 : ∀ i : grid2.Coords, EltTy.bits .f32 = 32 ∨ (Rect.block (s := S192x192) S192x192.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x192.size a ≤ S1x192.size a
  hwx2_2 : ∀ i : grid2.Coords, EltTy.bits .f32 = 32 ∨ (Rect.block (s := S1x192) S1x192.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S192x192.size a ≤ S192x192.size a
  hwx2_3 : ∀ i : grid2.Coords, EltTy.bits .f32 = 32 ∨ (Rect.block (s := S192x192) S192x192.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x192.size a ≤ S1x192.size a
  hwx2_4 : ∀ i : grid2.Coords, EltTy.bits .f32 = 32 ∨ (Rect.block (s := S1x192) S1x192.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x192.size a ≤ S250000x192.size a
  hwx2_5 : ∀ i : grid2.Coords, EltTy.bits .f32 = 32 ∨ (Rect.block (s := S250000x192) S5000x192.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S200000x64.size a
  hwx3_0 : ∀ i : grid3.Coords, EltTy.bits .f32 = 32 ∨ (Rect.block (s := S200000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x64.size a ≤ S200000x64.size a
  hwx3_1 : ∀ i : grid3.Coords, EltTy.bits .f32 = 32 ∨ (Rect.block (s := S200000x64) S8000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x64.size a ≤ S128x64.size a
  hwx3_5 : ∀ i : grid3.Coords, EltTy.bits .f32 = 32 ∨ (Rect.block (s := S128x64) S128x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S8000x64.size a ≤ S200000x64.size a
  hwx3_7 : ∀ i : grid3.Coords, EltTy.bits .f32 = 32 ∨ (Rect.block (s := S200000x64) S8000x64.size (cc3_transform_7 i) (hinb3_7 i)).WholeWords (EltTy.packing .f32)

variable [Facts₀]

def gather_S200000x64_S250000x1_S250000x64_1_0_n_n_0_1_164 : GatherDims S200000x64 S250000x1 S250000x64 where
  offsetDims := [1]
  collapsedSliceDims := [0]
  operandBatchingDims := []
  startIndicesBatchingDims := []
  startIndexMap := [0]
  indexVectorDim := 1
  sliceSizes := ![1, 64]
  wf := gather_S200000x64_S250000x1_S250000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S200000x64_S250000x1_S250000x64_1_0_0_1 : ScatterDims S200000x64 S250000x1 S250000x64 where
  updateWindowDims := [1]
  insertedWindowDims := [0]
  scatterDimsToOperandDims := [0]
  indexVectorDim := 1
  wf := scatter_S200000x64_S250000x1_S250000x64_1_0_0_1_wf
def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S200000x64_S500000x1_S500000x64_1_0_0_1 : ScatterDims S200000x64 S500000x1 S500000x64 where
  updateWindowDims := [1]
  insertedWindowDims := [0]
  scatterDimsToOperandDims := [0]
  indexVectorDim := 1
  wf := scatter_S200000x64_S500000x1_S500000x64_1_0_0_1_wf
def gather_S200000x64_S750000x1_S750000x64_1_0_n_n_0_1_164 : GatherDims S200000x64 S750000x1 S750000x64 where
  offsetDims := [1]
  collapsedSliceDims := [0]
  operandBatchingDims := []
  startIndicesBatchingDims := []
  startIndexMap := [0]
  indexVectorDim := 1
  sliceSizes := ![1, 64]
  wf := gather_S200000x64_S750000x1_S750000x64_1_0_n_n_0_1_164_wf
def dot_S5000x192_S192x192_S5000x192_1_0_0_1_n_n : DotDims S5000x192 S192x192 S5000x192 where
  lhsContracting := [1]
  rhsContracting := [0]
  lhsNonContracting := [0]
  rhsNonContracting := [1]
  lhsBatch := []
  rhsBatch := []
  wf := dot_S5000x192_S192x192_S5000x192_1_0_0_1_n_n_wf
def scatter_S200000x64_S750000x1_S750000x64_1_0_0_1 : ScatterDims S200000x64 S750000x1 S750000x64 where
  updateWindowDims := [1]
  insertedWindowDims := [0]
  scatterDimsToOperandDims := [0]
  indexVectorDim := 1
  wf := scatter_S200000x64_S750000x1_S750000x64_1_0_0_1_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf

abbrev win0_0 : Pipeline.Window sig grid0 :=
  Pipeline.Window.ofSpec (Memref.whole main_v7) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S5000x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S192x192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x192.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S192x192.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x192.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S5000x192.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S8000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S64x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg18) S128x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v59) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v60) S8000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S200000x64 : Shape := ⟨2, ![200000, 64]⟩
abbrev S250000 : Shape := ⟨1, ![250000]⟩
abbrev S500000 : Shape := ⟨1, ![500000]⟩
abbrev S750000 : Shape := ⟨1, ![750000]⟩
abbrev S64x64 : Shape := ⟨2, ![64, 64]⟩
abbrev S64 : Shape := ⟨1, ![64]⟩
abbrev S128x128 : Shape := ⟨2, ![128, 128]⟩
abbrev S128 : Shape := ⟨1, ![128]⟩
abbrev S192x192 : Shape := ⟨2, ![192, 192]⟩
abbrev S192 : Shape := ⟨1, ![192]⟩
abbrev S128x64 : Shape := ⟨2, ![128, 64]⟩
abbrev S_ : Shape := ⟨0, ![]⟩
abbrev S250000x1 : Shape := ⟨2, ![250000, 1]⟩
abbrev S250000x64 : Shape := ⟨2, ![250000, 64]⟩
abbrev S1x64 : Shape := ⟨2, ![1, 64]⟩
abbrev S500000x1 : Shape := ⟨2, ![500000, 1]⟩
abbrev S500000x64 : Shape := ⟨2, ![500000, 64]⟩
abbrev S250000x128 : Shape := ⟨2, ![250000, 128]⟩
abbrev S1x128 : Shape := ⟨2, ![1, 128]⟩
abbrev S750000x1 : Shape := ⟨2, ![750000, 1]⟩
abbrev S750000x64 : Shape := ⟨2, ![750000, 64]⟩
abbrev S250000x192 : Shape := ⟨2, ![250000, 192]⟩
abbrev S1x192 : Shape := ⟨2, ![1, 192]⟩
abbrev S200000x128 : Shape := ⟨2, ![200000, 128]⟩

abbrev nBuf : Space → Nat
  | .hbm => 125
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S250000, .i32⟩
  | .hbm, ⟨2, _⟩ => ⟨S500000, .i32⟩
  | .hbm, ⟨3, _⟩ => ⟨S750000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S192x192, .f32⟩
  | .hbm, ⟨13, _⟩ => ⟨S192, .f32⟩
  | .hbm, ⟨14, _⟩ => ⟨S192x192, .f32⟩
  | .hbm, ⟨15, _⟩ => ⟨S192, .f32⟩
  | .hbm, ⟨16, _⟩ => ⟨S128x128, .f32⟩
  | .hbm, ⟨17, _⟩ => ⟨S128, .f32⟩
  | .hbm, ⟨18, _⟩ => ⟨S128x64, .f32⟩
  | .hbm, ⟨19, _⟩ => ⟨S64, .f32⟩
  | .hbm, ⟨20, _⟩ => ⟨S_, .f32⟩
  | .hbm, ⟨21, _⟩ => ⟨S200000x64, .f32⟩
  | .hbm, ⟨22, _⟩ => ⟨S_, .i32⟩
  | .hbm, ⟨23, _⟩ => ⟨S250000, .i32⟩
  | .hbm, ⟨24, _⟩ => ⟨S250000, .i1⟩
  | .hbm, ⟨25, _⟩ => ⟨S_, .i32⟩
  | .hbm, ⟨26, _⟩ => ⟨S250000, .i32⟩
  | .hbm, ⟨27, _⟩ => ⟨S250000, .i32⟩
  | .hbm, ⟨28, _⟩ => ⟨S250000, .i32⟩
  | .hbm, ⟨29, _⟩ => ⟨S250000x1, .i32⟩
  | .hbm, ⟨30, _⟩ => ⟨S250000x64, .f32⟩
  | .hbm, ⟨31, _⟩ => ⟨S250000x64, .f32⟩
  | .hbm, ⟨32, _⟩ => ⟨S1x64, .f32⟩
  | .hbm, ⟨33, _⟩ => ⟨S250000x64, .f32⟩
  | .hbm, ⟨34, _⟩ => ⟨S250000x64, .f32⟩
  | .hbm, ⟨35, _⟩ => ⟨S_, .f32⟩
  | .hbm, ⟨36, _⟩ => ⟨S250000x64, .f32⟩
  | .hbm, ⟨37, _⟩ => ⟨S250000x64, .f32⟩
  | .hbm, ⟨38, _⟩ => ⟨S250000x64, .f32⟩
  | .hbm, ⟨39, _⟩ => ⟨S1x64, .f32⟩
  | .hbm, ⟨40, _⟩ => ⟨S250000x64, .f32⟩
  | .hbm, ⟨41, _⟩ => ⟨S250000x64, .f32⟩
  | .hbm, ⟨42, _⟩ => ⟨S_, .i32⟩
  | .hbm, ⟨43, _⟩ => ⟨S250000, .i32⟩
  | .hbm, ⟨44, _⟩ => ⟨S250000, .i1⟩
  | .hbm, ⟨45, _⟩ => ⟨S_, .i32⟩
  | .hbm, ⟨46, _⟩ => ⟨S250000, .i32⟩
  | .hbm, ⟨47, _⟩ => ⟨S250000, .i32⟩
  | .hbm, ⟨48, _⟩ => ⟨S250000, .i32⟩
  | .hbm, ⟨49, _⟩ => ⟨S250000x1, .i32⟩
  | .hbm, ⟨50, _⟩ => ⟨S200000x64, .f32⟩
  | .hbm, ⟨51, _⟩ => ⟨S_, .i32⟩
  | .hbm, ⟨52, _⟩ => ⟨S500000, .i32⟩
  | .hbm, ⟨53, _⟩ => ⟨S500000, .i1⟩
  | .hbm, ⟨54, _⟩ => ⟨S_, .i32⟩
  | .hbm, ⟨55, _⟩ => ⟨S500000, .i32⟩
  | .hbm, ⟨56, _⟩ => ⟨S500000, .i32⟩
  | .hbm, ⟨57, _⟩ => ⟨S500000, .i32⟩
  | .hbm, ⟨58, _⟩ => ⟨S500000x1, .i32⟩
  | .hbm, ⟨59, _⟩ => ⟨S500000x64, .f32⟩
  | .hbm, ⟨60, _⟩ => ⟨S250000x128, .f32⟩
  | .hbm, ⟨61, _⟩ => ⟨S250000x128, .f32⟩
  | .hbm, ⟨62, _⟩ => ⟨S1x128, .f32⟩
  | .hbm, ⟨63, _⟩ => ⟨S250000x128, .f32⟩
  | .hbm, ⟨64, _⟩ => ⟨S250000x128, .f32⟩
  | .hbm, ⟨65, _⟩ => ⟨S_, .f32⟩
  | .hbm, ⟨66, _⟩ => ⟨S250000x128, .f32⟩
  | .hbm, ⟨67, _⟩ => ⟨S250000x128, .f32⟩
  | .hbm, ⟨68, _⟩ => ⟨S250000x128, .f32⟩
  | .hbm, ⟨69, _⟩ => ⟨S1x128, .f32⟩
  | .hbm, ⟨70, _⟩ => ⟨S250000x128, .f32⟩
  | .hbm, ⟨71, _⟩ => ⟨S250000x128, .f32⟩
  | .hbm, ⟨72, _⟩ => ⟨S500000x64, .f32⟩
  | .hbm, ⟨73, _⟩ => ⟨S_, .i32⟩
  | .hbm, ⟨74, _⟩ => ⟨S500000, .i32⟩
  | .hbm, ⟨75, _⟩ => ⟨S500000, .i1⟩
  | .hbm, ⟨76, _⟩ => ⟨S_, .i32⟩
  | .hbm, ⟨77, _⟩ => ⟨S500000, .i32⟩
  | .hbm, ⟨78, _⟩ => ⟨S500000, .i32⟩
  | .hbm, ⟨79, _⟩ => ⟨S500000, .i32⟩
  | .hbm, ⟨80, _⟩ => ⟨S500000x1, .i32⟩
  | .hbm, ⟨81, _⟩ => ⟨S200000x64, .f32⟩
  | .hbm, ⟨82, _⟩ => ⟨S_, .i32⟩
  | .hbm, ⟨83, _⟩ => ⟨S750000, .i32⟩
  | .hbm, ⟨84, _⟩ => ⟨S750000, .i1⟩
  | .hbm, ⟨85, _⟩ => ⟨S_, .i32⟩
  | .hbm, ⟨86, _⟩ => ⟨S750000, .i32⟩
  | .hbm, ⟨87, _⟩ => ⟨S750000, .i32⟩
  | .hbm, ⟨88, _⟩ => ⟨S750000, .i32⟩
  | .hbm, ⟨89, _⟩ => ⟨S750000x1, .i32⟩
  | .hbm, ⟨90, _⟩ => ⟨S750000x64, .f32⟩
  | .hbm, ⟨91, _⟩ => ⟨S250000x192, .f32⟩
  | .hbm, ⟨92, _⟩ => ⟨S250000x192, .f32⟩
  | .hbm, ⟨93, _⟩ => ⟨S1x192, .f32⟩
  | .hbm, ⟨94, _⟩ => ⟨S250000x192, .f32⟩
  | .hbm, ⟨95, _⟩ => ⟨S250000x192, .f32⟩
  | .hbm, ⟨96, _⟩ => ⟨S_, .f32⟩
  | .hbm, ⟨97, _⟩ => ⟨S250000x192, .f32⟩
  | .hbm, ⟨98, _⟩ => ⟨S250000x192, .f32⟩
  | .hbm, ⟨99, _⟩ => ⟨S250000x192, .f32⟩
  | .hbm, ⟨100, _⟩ => ⟨S1x192, .f32⟩
  | .hbm, ⟨101, _⟩ => ⟨S250000x192, .f32⟩
  | .hbm, ⟨102, _⟩ => ⟨S250000x192, .f32⟩
  | .hbm, ⟨103, _⟩ => ⟨S750000x64, .f32⟩
  | .hbm, ⟨104, _⟩ => ⟨S_, .i32⟩
  | .hbm, ⟨105, _⟩ => ⟨S750000, .i32⟩
  | .hbm, ⟨106, _⟩ => ⟨S750000, .i1⟩
  | .hbm, ⟨107, _⟩ => ⟨S_, .i32⟩
  | .hbm, ⟨108, _⟩ => ⟨S750000, .i32⟩
  | .hbm, ⟨109, _⟩ => ⟨S750000, .i32⟩
  | .hbm, ⟨110, _⟩ => ⟨S750000, .i32⟩
  | .hbm, ⟨111, _⟩ => ⟨S750000x1, .i32⟩
  | .hbm, ⟨112, _⟩ => ⟨S200000x64, .f32⟩
  | .hbm, ⟨113, _⟩ => ⟨S200000x128, .f32⟩
  | .hbm, ⟨114, _⟩ => ⟨S200000x128, .f32⟩
  | .hbm, ⟨115, _⟩ => ⟨S1x128, .f32⟩
  | .hbm, ⟨116, _⟩ => ⟨S200000x128, .f32⟩
  | .hbm, ⟨117, _⟩ => ⟨S200000x128, .f32⟩
  | .hbm, ⟨118, _⟩ => ⟨S_, .f32⟩
  | .hbm, ⟨119, _⟩ => ⟨S200000x128, .f32⟩
  | .hbm, ⟨120, _⟩ => ⟨S200000x128, .f32⟩
  | .hbm, ⟨121, _⟩ => ⟨S200000x64, .f32⟩
  | .hbm, ⟨122, _⟩ => ⟨S1x64, .f32⟩
  | .hbm, ⟨123, _⟩ => ⟨S200000x64, .f32⟩
  | .hbm, ⟨124, _⟩ => ⟨S200000x64, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_c : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_call0_cst : Ref sig .tc := ⟨.hbm, 35, rfl⟩
abbrev main_call0_v0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_1 : Ref sig .tc := ⟨.hbm, 42, rfl⟩
abbrev main_v17 : Ref sig .tc := ⟨.hbm, 43, rfl⟩
abbrev main_v18 : Ref sig .tc := ⟨.hbm, 44, rfl⟩
abbrev main_c_2 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_3 : Ref sig .tc := ⟨.hbm, 51, rfl⟩
abbrev main_v24 : Ref sig .tc := ⟨.hbm, 52, rfl⟩
abbrev main_v25 : Ref sig .tc := ⟨.hbm, 53, rfl⟩
abbrev main_c_4 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_call1_cst : Ref sig .tc := ⟨.hbm, 65, rfl⟩
abbrev main_call1_v0 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_5 : Ref sig .tc := ⟨.hbm, 73, rfl⟩
abbrev main_v42 : Ref sig .tc := ⟨.hbm, 74, rfl⟩
abbrev main_v43 : Ref sig .tc := ⟨.hbm, 75, rfl⟩
abbrev main_c_6 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_7 : Ref sig .tc := ⟨.hbm, 82, rfl⟩
abbrev main_v49 : Ref sig .tc := ⟨.hbm, 83, rfl⟩
abbrev main_v50 : Ref sig .tc := ⟨.hbm, 84, rfl⟩
abbrev main_c_8 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_call2_cst : Ref sig .tc := ⟨.hbm, 96, rfl⟩
abbrev main_call2_v0 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_9 : Ref sig .tc := ⟨.hbm, 104, rfl⟩
abbrev main_v67 : Ref sig .tc := ⟨.hbm, 105, rfl⟩
abbrev main_v68 : Ref sig .tc := ⟨.hbm, 106, rfl⟩
abbrev main_c_10 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_call3_cst : Ref sig .tc := ⟨.hbm, 118, rfl⟩
abbrev main_call3_v0 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩

abbrev nD : Nat := 1
abbrev τ : Topo := Topo.v7x

variable {F : FTy → Type} [FloatOps F]

class Facts₀ : Prop where
  bcast_S_S200000x64 : S_.BroadcastsInDim S200000x64 (![] : Fin 0 → Fin S200000x64.rank)
  bcast_S_S250000 : S_.BroadcastsInDim S250000 (![] : Fin 0 → Fin S250000.rank)
  bcast_S250000_S250000x1_0 : S250000.BroadcastsInDim S250000x1 (![0] : Fin 1 → Fin S250000x1.rank)
  bcast_S64_S1x64_1 : S64.BroadcastsInDim S1x64 (![1] : Fin 1 → Fin S1x64.rank)
  bcast_S1x64_S250000x64_0_1 : S1x64.BroadcastsInDim S250000x64 (![0, 1] : Fin 2 → Fin S250000x64.rank)
  bcast_S_S250000x64 : S_.BroadcastsInDim S250000x64 (![] : Fin 0 → Fin S250000x64.rank)
  bcast_S_S500000 : S_.BroadcastsInDim S500000 (![] : Fin 0 → Fin S500000.rank)
  bcast_S500000_S500000x1_0 : S500000.BroadcastsInDim S500000x1 (![0] : Fin 1 → Fin S500000x1.rank)
  shapeCasts_S500000x64_S250000x128 : S500000x64.ShapeCasts S250000x128
  bcast_S128_S1x128_1 : S128.BroadcastsInDim S1x128 (![1] : Fin 1 → Fin S1x128.rank)
  bcast_S1x128_S250000x128_0_1 : S1x128.BroadcastsInDim S250000x128 (![0, 1] : Fin 2 → Fin S250000x128.rank)
  bcast_S_S250000x128 : S_.BroadcastsInDim S250000x128 (![] : Fin 0 → Fin S250000x128.rank)
  shapeCasts_S250000x128_S500000x64 : S250000x128.ShapeCasts S500000x64
  bcast_S_S750000 : S_.BroadcastsInDim S750000 (![] : Fin 0 → Fin S750000.rank)
  bcast_S750000_S750000x1_0 : S750000.BroadcastsInDim S750000x1 (![0] : Fin 1 → Fin S750000x1.rank)
  shapeCasts_S750000x64_S250000x192 : S750000x64.ShapeCasts S250000x192
  bcast_S192_S1x192_1 : S192.BroadcastsInDim S1x192 (![1] : Fin 1 → Fin S1x192.rank)
  bcast_S1x192_S250000x192_0_1 : S1x192.BroadcastsInDim S250000x192 (![0, 1] : Fin 2 → Fin S250000x192.rank)
  bcast_S_S250000x192 : S_.BroadcastsInDim S250000x192 (![] : Fin 0 → Fin S250000x192.rank)
  shapeCasts_S250000x192_S750000x64 : S250000x192.ShapeCasts S750000x64
  concatenates_S200000x64_S200000x64_S200000x128_d1 : Shape.Concatenates [S200000x64, S200000x64] S200000x128 1
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S1x64_S200000x64_0_1 : S1x64.BroadcastsInDim S200000x64 (![0, 1] : Fin 2 → Fin S200000x64.rank)
  gather_S200000x64_S250000x1_S250000x64_1_0_n_n_0_1_164_wf : GatherDims.WF S200000x64 S250000x1 S250000x64 [1] [0] [] [0] [] 1 ![1, 64]
  dot_S250000x64_S64x64_S250000x64_1_0_0_1_n_n_wf : DotDims.WF S250000x64 S64x64 S250000x64 [1] [0] [0] [1] [] []
  scatter_S200000x64_S250000x1_S250000x64_1_0_0_1_wf : ScatterDims.WF S200000x64 S250000x1 S250000x64 [1] [0] [0] 1
  gather_S200000x64_S500000x1_S500000x64_1_0_n_n_0_1_164_wf : GatherDims.WF S200000x64 S500000x1 S500000x64 [1] [0] [] [0] [] 1 ![1, 64]
  dot_S250000x128_S128x128_S250000x128_1_0_0_1_n_n_wf : DotDims.WF S250000x128 S128x128 S250000x128 [1] [0] [0] [1] [] []
  scatter_S200000x64_S500000x1_S500000x64_1_0_0_1_wf : ScatterDims.WF S200000x64 S500000x1 S500000x64 [1] [0] [0] 1
  gather_S200000x64_S750000x1_S750000x64_1_0_n_n_0_1_164_wf : GatherDims.WF S200000x64 S750000x1 S750000x64 [1] [0] [] [0] [] 1 ![1, 64]
  dot_S250000x192_S192x192_S250000x192_1_0_0_1_n_n_wf : DotDims.WF S250000x192 S192x192 S250000x192 [1] [0] [0] [1] [] []
  scatter_S200000x64_S750000x1_S750000x64_1_0_0_1_wf : ScatterDims.WF S200000x64 S750000x1 S750000x64 [1] [0] [0] 1
  dot_S200000x128_S128x128_S200000x128_1_0_0_1_n_n_wf : DotDims.WF S200000x128 S128x128 S200000x128 [1] [0] [0] [1] [] []
  dot_S200000x128_S128x64_S200000x64_1_0_0_1_n_n_wf : DotDims.WF S200000x128 S128x64 S200000x64 [1] [0] [0] [1] [] []

variable [Facts₀]

def gather_S200000x64_S250000x1_S250000x64_1_0_n_n_0_1_164 : GatherDims S200000x64 S250000x1 S250000x64 where
  offsetDims := [1]
  collapsedSliceDims := [0]
  operandBatchingDims := []
  startIndicesBatchingDims := []
  startIndexMap := [0]
  indexVectorDim := 1
  sliceSizes := ![1, 64]
  wf := gather_S200000x64_S250000x1_S250000x64_1_0_n_n_0_1_164_wf
def dot_S250000x64_S64x64_S250000x64_1_0_0_1_n_n : DotDims S250000x64 S64x64 S250000x64 where
  lhsContracting := [1]
  rhsContracting := [0]
  lhsNonContracting := [0]
  rhsNonContracting := [1]
  lhsBatch := []
  rhsBatch := []
  wf := dot_S250000x64_S64x64_S250000x64_1_0_0_1_n_n_wf
def scatter_S200000x64_S250000x1_S250000x64_1_0_0_1 : ScatterDims S200000x64 S250000x1 S250000x64 where
  updateWindowDims := [1]
  insertedWindowDims := [0]
  scatterDimsToOperandDims := [0]
  indexVectorDim := 1
  wf := scatter_S200000x64_S250000x1_S250000x64_1_0_0_1_wf
def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf
def dot_S250000x128_S128x128_S250000x128_1_0_0_1_n_n : DotDims S250000x128 S128x128 S250000x128 where
  lhsContracting := [1]
  rhsContracting := [0]
  lhsNonContracting := [0]
  rhsNonContracting := [1]
  lhsBatch := []
  rhsBatch := []
  wf := dot_S250000x128_S128x128_S250000x128_1_0_0_1_n_n_wf
def scatter_S200000x64_S500000x1_S500000x64_1_0_0_1 : ScatterDims S200000x64 S500000x1 S500000x64 where
  updateWindowDims := [1]
  insertedWindowDims := [0]
  scatterDimsToOperandDims := [0]
  indexVectorDim := 1
  wf := scatter_S200000x64_S500000x1_S500000x64_1_0_0_1_wf
def gather_S200000x64_S750000x1_S750000x64_1_0_n_n_0_1_164 : GatherDims S200000x64 S750000x1 S750000x64 where
  offsetDims := [1]
  collapsedSliceDims := [0]
  operandBatchingDims := []
  startIndicesBatchingDims := []
  startIndexMap := [0]
  indexVectorDim := 1
  sliceSizes := ![1, 64]
  wf := gather_S200000x64_S750000x1_S750000x64_1_0_n_n_0_1_164_wf
def dot_S250000x192_S192x192_S250000x192_1_0_0_1_n_n : DotDims S250000x192 S192x192 S250000x192 where
  lhsContracting := [1]
  rhsContracting := [0]
  lhsNonContracting := [0]
  rhsNonContracting := [1]
  lhsBatch := []
  rhsBatch := []
  wf := dot_S250000x192_S192x192_S250000x192_1_0_0_1_n_n_wf
def scatter_S200000x64_S750000x1_S750000x64_1_0_0_1 : ScatterDims S200000x64 S750000x1 S750000x64 where
  updateWindowDims := [1]
  insertedWindowDims := [0]
  scatterDimsToOperandDims := [0]
  indexVectorDim := 1
  wf := scatter_S200000x64_S750000x1_S750000x64_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf

class Facts : Prop extends Facts₀ where

variable [Facts]
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.Layer.lean ====
/-
  The mathematics of one relational message-passing layer, at the ideal values: every float is an extended real and every
  operation the exact one, so a change of float format does nothing.

  * A dense layer on a matrix x of M rows: entry (p, q) of x · w + b is the sum over k of x (p, k) · w (k, q), plus b (q);
    the bias is kept as a one-row matrix.
  * The message network of a relation is two dense layers with a rectifier between them:
    entry (p, q) is  sum over k of  max (dense x w1 b1 (p, k), 0) · w2 (k, q),  plus b2 (q).
  * The update network reads the concatenation [s | n] of two M × H matrices. Its first product splits along the
    contraction coordinate: the sum over the 2H columns of [s | n] is the sum over the H columns of s against the upper
    half of the weight matrix plus the sum over the H columns of n against the lower half. That is associativity and
    commutativity of addition alone, which the extended reals have without any finiteness.
-/
import Idealize.ShloMosaic.PureOps.Ideal.Laws
import Idealize.ShloMosaic.Lib.ValueIdx

noncomputable section

open scoped BigOperators
open Idealize.ShloMosaic Idealize.ShloMosaic.ValueIdx

namespace Cert.Layer

/-- An a × b matrix of extended reals. -/
abbrev Mat (a b : Nat) : Type := FVec Ideal (⟨2, ![a, b]⟩ : Shape) .f32

/-- The value of the all-zero word. -/
abbrev zero : Ideal .f32 := Ideal.ofBits .f32 0x00000000#32

/-- A dense layer at entry (p, q). -/
def denseAt {M K N : Nat} (x : Mat M K) (w : Mat K N) (b : Mat 1 N) (p : Fin M) (q : Fin N) : Ideal .f32 :=
  (∑ k : Fin K, x (ix2 p k) * w (ix2 k q)) + b (ix2 (0 : Fin 1) q)

/-- The message network at entry (p, q): a dense layer, the rectifier, a dense layer. -/
def mlpAt {M D : Nat} (x : Mat M D) (w1 : Mat D D) (b1 : Mat 1 D) (w2 : Mat D D) (b2 : Mat 1 D) (p : Fin M) (q : Fin D) :
    Ideal .f32 :=
  (∑ k : Fin D, max (denseAt x w1 b1 p k) zero * w2 (ix2 k q)) + b2 (ix2 (0 : Fin 1) q)

/-- The message network as a matrix. -/
def mlp {M D : Nat} (x : Mat M D) (w1 : Mat D D) (b1 : Mat 1 D) (w2 : Mat D D) (b2 : Mat 1 D) : Mat M D :=
  fun i => mlpAt x w1 b1 w2 b2 (i 0) (i 1)

theorem mlp_apply {M D : Nat} (x : Mat M D) (w1 : Mat D D) (b1 : Mat 1 D) (w2 : Mat D D) (b2 : Mat 1 D) (p : Fin M) (q : Fin D) :
    mlp x w1 b1 w2 b2 (ix2 p q) = mlpAt x w1 b1 w2 b2 p q := rfl

/-- The update network at entry (p, q), its first weight matrix given as an upper and a lower half. -/
def updAt {M H D N : Nat} (s n : Mat M H) (wa wb : Mat H D) (b1 : Mat 1 D) (w2 : Mat D N) (b2 : Mat 1 N) (p : Fin M) (q : Fin N) :
    Ideal .f32 :=
  (∑ k : Fin D, max ((∑ j : Fin H, s (ix2 p j) * wa (ix2 j k)) + (∑ j : Fin H, n (ix2 p j) * wb (ix2 j k)) + b1 (ix2 (0 : Fin 1) k)) zero
      * w2 (ix2 k q)) + b2 (ix2 (0 : Fin 1) q)

/-- The update network as a matrix. -/
def upd {M H D N : Nat} (s n : Mat M H) (wa wb : Mat H D) (b1 : Mat 1 D) (w2 : Mat D N) (b2 : Mat 1 N) : Mat M N :=
  fun i => updAt s n wa wb b1 w2 b2 (i 0) (i 1)

theorem upd_apply {M H D N : Nat} (s n : Mat M H) (wa wb : Mat H D) (b1 : Mat 1 D) (w2 : Mat D N) (b2 : Mat 1 N) (p : Fin M) (q : Fin N) :
    upd s n wa wb b1 w2 b2 (ix2 p q) = updAt s n wa wb b1 w2 b2 p q := rfl

/-- The message network's entry (p, q) depends on row p of x only: two inputs that agree on that row (under any renumbering
    of the rows) and share the weights give the same entry. -/
theorem mlpAt_congr {M M' D : Nat} {x : Mat M D} {x' : Mat M' D} {w1 w1' : Mat D D} {b1 b1' : Mat 1 D} {w2 w2' : Mat D D}
    {b2 b2' : Mat 1 D} (p : Fin M) (r : Fin M') (q : Fin D) (hx : ∀ j : Fin D, x (ix2 p j) = x' (ix2 r j))
    (hw1 : w1 = w1') (hb1 : b1 = b1') (hw2 : w2 = w2') (hb2 : b2 = b2') :
    mlpAt x w1 b1 w2 b2 p q = mlpAt x' w1' b1' w2' b2' r q := by
  subst hw1 hb1 hw2 hb2
  unfold mlpAt denseAt
  simp only [hx]

/-- The same for the update network, which reads row p of each of its two inputs. -/
theorem updAt_congr {M M' H D N : Nat} {s n : Mat M H} {s' n' : Mat M' H} {wa wa' wb wb' : Mat H D} {b1 b1' : Mat 1 D}
    {w2 w2' : Mat D N} {b2 b2' : Mat 1 N} (p : Fin M) (r : Fin M') (q : Fin N)
    (hs : ∀ j : Fin H, s (ix2 p j) = s' (ix2 r j)) (hn : ∀ j : Fin H, n (ix2 p j) = n' (ix2 r j))
    (hwa : wa = wa') (hwb : wb = wb') (hb1 : b1 = b1') (hw2 : w2 = w2') (hb2 : b2 = b2') :
    updAt s n wa wb b1 w2 b2 p q = updAt s' n' wa' wb' b1' w2' b2' r q := by
  subst hwa hwb hb1 hw2 hb2
  unfold updAt
  simp only [hs, hn]

/-- A sum over 2H terms is the sum of its first H terms plus the sum of its last H terms. -/
theorem sum_halves {H : Nat} (f : Fin (H + H) → EReal) :
    ∑ j : Fin (H + H), f j = (∑ j : Fin H, f (Fin.castAdd H j)) + ∑ j : Fin H, f (Fin.natAdd H j) :=
  Fin.sum_univ_add f

end Cert.Layer

end
-- ==== Proof.Msg0.lean ====
/-
  The first relation's message network, region by region of the pipeline: what the whole result array holds once every grid
  point has written its block back.

  The region cuts the T = 250000 rows of its input x into 50 blocks of 5000 rows; the two weight matrices and the two one-row
  biases are each one block, the same at every point. At point t the body computes, from rows 5000 t … 5000 t + 4999 of x,
  the same rows of  max (x · w1 + b1, 0) · w2 + b2  and writes them to the same rows of the result. An entry of that matrix
  depends on one row of x only, so block t of the result is block t of the message network of the WHOLE x; the 50 blocks
  tile the rows, hence the result array is the message network of x.
-/
import proofs.«126759_j52776558133695_1_alg».proof.Proof.Gen.KernelIdeal.Frame
import proofs.«126759_j52776558133695_1_alg».proof.Proof.LibPlainMatmul
import proofs.«126759_j52776558133695_1_alg».proof.Proof.Layer
import Idealize.ShloMosaic.Lib.Pipeline.Value

set_option maxRecDepth 16384

noncomputable section

namespace Cert.KernelIdeal.Msg0

open Cert.KernelIdeal Cert.KernelIdeal.Gen Cert.Layer Cert.Lib Idealize.ShloMosaic Idealize.ShloMosaic.TcCoe
open Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of its block: the message network of the loaded blocks. -/
theorem pay_apply (v0 : Vec Ideal S5000x64 .f32) (v3 : Vec Ideal S64x64 .f32) (v6 : Vec Ideal S1x64 .f32)
    (v13 : Vec Ideal S64x64 .f32) (v16 : Vec Ideal S1x64 .f32) (p : Fin 5000) (q : Fin 64) :
    k0_pay1 (F := Ideal) v0 v3 v6 v13 v16 (ix2 p q) = mlpAt v0 v3 v6 v13 v16 p q := by
  unfold k0_pay1 mlpAt denseAt
  simp only [addf_apply, maximumf_apply, truncf_apply, broadcast_apply, shapeCast_self,
    PlainMatmul.apply dot_S5000x64_S64x64_S5000x64_1_0_0_1_n_n rfl rfl rfl rfl rfl rfl, PlainMatmul.rowSpread_apply]
  rfl

/-- The message network of the arrays as the region finds them. -/
abbrev G (c : Dev nD) : S250000x64.Idx → Elt Ideal .f32 :=
  mlp (V c main_v7) (V c main_arg4) (V c main_v8) (V c main_arg6) (V c main_v9)

/-- The printed index maps over the grid: the input's and the result's blocks move together down the rows, point t at
    block t; every other window stays at its one block. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the message network of the whole input. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  obtain ⟨e0, e1, e2, e3, e4, e5, e6, e7, e8, e9, e10, e11⟩ := idx_facts t
  funext j
  obtain ⟨p, q, rfl⟩ : ∃ (p : Fin 5000) (q : Fin 64), j = ix2 p q := ⟨j 0, j 1, eq_ix2 j⟩
  have ht : t.val < 50 := lt_of_lt_of_eq t.isLt N_0
  have hr : ((cfg0.win 5).blk t).view.emb (ix2 p q) = ix2 (⟨t.val * 5000 + p.val, by omega⟩ : Fin 250000) q := by
    funext a; apply Fin.ext
    match a with
    | ⟨0, _⟩ => show win0_5.index t (0 : Fin 2) * 5000 + 1 * p.val = t.val * 5000 + p.val; omega
    | ⟨1, _⟩ => show win0_5.index t (1 : Fin 2) * 64 + 1 * q.val = q.val; omega
  show k0_pay1 (iblk0 V c 0 t) (iblk0 V c 1 t) (iblk0 V c 2 t) (iblk0 V c 3 t) (iblk0 V c 4 t) (ix2 p q) = G V c (((cfg0.win 5).blk t).view.emb (ix2 p q))
  rw [hr, pay_apply]
  show _ = mlpAt (V c main_v7) (V c main_arg4) (V c main_v8) (V c main_arg6) (V c main_v9) ⟨t.val * 5000 + p.val, by omega⟩ q
  refine mlpAt_congr p _ q (fun k => ?_) ?_ ?_ ?_ ?_
  · show V c main_v7 (((cfg0.win 0).blk t).view.emb (ix2 p k)) = V c main_v7 (ix2 ⟨t.val * 5000 + p.val, by omega⟩ k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  · funext y
    show V c main_arg4 (((cfg0.win 1).blk t).view.emb y) = V c main_arg4 y
    refine congrArg _ (funext fun a => Fin.ext ?_)
    match a with
    | ⟨0, _⟩ => show win0_1.index t (0 : Fin 2) * 64 + 1 * (y 0).val = (y 0).val; omega
    | ⟨1, _⟩ => show win0_1.index t (1 : Fin 2) * 64 + 1 * (y 1).val = (y 1).val; omega
  · funext y
    show V c main_v8 (((cfg0.win 2).blk t).view.emb y) = V c main_v8 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 64 + 1 * (y 1).val = (y 1).val; omega
  · funext y
    show V c main_arg6 (((cfg0.win 3).blk t).view.emb y) = V c main_arg6 y
    refine congrArg _ (funext fun a => Fin.ext ?_)
    match a with
    | ⟨0, _⟩ => show win0_3.index t (0 : Fin 2) * 64 + 1 * (y 0).val = (y 0).val; omega
    | ⟨1, _⟩ => show win0_3.index t (1 : Fin 2) * 64 + 1 * (y 1).val = (y 1).val; omega
  · funext y
    show V c main_v9 (((cfg0.win 4).blk t).view.emb y) = V c main_v9 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 64 + 1 * (y 1).val = (y 1).val; omega

/-- An index of the result array is in point t's block iff each coordinate is in the block's range on its axis. -/
theorem mem_blk (t : Fin cfg0.N) (i : S250000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v10).slice (win0_5.rect t)).set ↔ _
  rw [View.set_slice_whole, Rect.mem_set_unit]
  exact Iff.rfl

/-- Every row of the result lies in the block of the point its row number divided by 5000 names. -/
theorem cover (i : S250000x64.Idx) : ∃ t : Fin cfg0.N, (cfg0.win 5).flush t = true ∧ i ∈ ((cfg0.win 5).blk t).view.set := by
  have hi0 : (i 0).val < 250000 := (i 0).isLt
  have hi1 : (i 1).val < 64 := (i 1).isLt
  let t : Fin cfg0.N := ⟨(i 0).val / 5000, by rw [show cfg0.N = 50 from N_0]; omega⟩
  obtain ⟨e0, e1, e2, e3, e4, e5, e6, e7, e8, e9, e10, e11⟩ := idx_facts t
  have e10' : win0_5.index t (0 : Fin 2) = (i 0).val / 5000 := e10
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The result array after the region is the message network of the arrays the region was entered with. -/
theorem final (c : Dev nD) : (dat0 V c).arrAt 5 cfg0.N = G V c :=
  (dat0 V c).arrAt_eq_of_cover 5 (G V c) (fun t _ => flushed_eq V c t) (cover)

end Cert.KernelIdeal.Msg0

end
-- ==== Proof.Msg1.lean ====
/-
  The second relation's message network, region by region of the pipeline: what the whole result array holds once every grid
  point has written its block back.

  The region cuts the T = 250000 rows of its input x into 50 blocks of 5000 rows; the two weight matrices and the two one-row
  biases are each one block, the same at every point. At point t the body computes, from rows 5000 t … 5000 t + 4999 of x,
  the same rows of  max (x · w1 + b1, 0) · w2 + b2  and writes them to the same rows of the result. An entry of that matrix
  depends on one row of x only, so block t of the result is block t of the message network of the WHOLE x; the 50 blocks
  tile the rows, hence the result array is the message network of x.
-/
import proofs.«126759_j52776558133695_1_alg».proof.Proof.Gen.KernelIdeal.Frame
import proofs.«126759_j52776558133695_1_alg».proof.Proof.LibPlainMatmul
import proofs.«126759_j52776558133695_1_alg».proof.Proof.Layer
import Idealize.ShloMosaic.Lib.Pipeline.Value

set_option maxRecDepth 16384

noncomputable section

namespace Cert.KernelIdeal.Msg1

open Cert.KernelIdeal Cert.KernelIdeal.Gen Cert.Layer Cert.Lib Idealize.ShloMosaic Idealize.ShloMosaic.TcCoe
open Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of its block: the message network of the loaded blocks. -/
theorem pay_apply (v0 : Vec Ideal S5000x128 .f32) (v3 : Vec Ideal S128x128 .f32) (v6 : Vec Ideal S1x128 .f32)
    (v13 : Vec Ideal S128x128 .f32) (v16 : Vec Ideal S1x128 .f32) (p : Fin 5000) (q : Fin 128) :
    k1_pay1 (F := Ideal) v0 v3 v6 v13 v16 (ix2 p q) = mlpAt v0 v3 v6 v13 v16 p q := by
  unfold k1_pay1 mlpAt denseAt
  simp only [addf_apply, maximumf_apply, truncf_apply, broadcast_apply, shapeCast_self,
    PlainMatmul.apply dot_S5000x128_S128x128_S5000x128_1_0_0_1_n_n rfl rfl rfl rfl rfl rfl, PlainMatmul.rowSpread_apply]
  rfl

/-- The message network of the arrays as the region finds them. -/
abbrev G (c : Dev nD) : S250000x128.Idx → Elt Ideal .f32 :=
  mlp (V c main_v25) (V c main_arg8) (V c main_v26) (V c main_arg10) (V c main_v27)

/-- The printed index maps over the grid: the input's and the result's blocks move together down the rows, point t at
    block t; every other window stays at its one block. -/
theorem idx_facts : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the message network of the whole input. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e0, e1, e2, e3, e4, e5, e6, e7, e8, e9, e10, e11⟩ := idx_facts t
  funext j
  obtain ⟨p, q, rfl⟩ : ∃ (p : Fin 5000) (q : Fin 128), j = ix2 p q := ⟨j 0, j 1, eq_ix2 j⟩
  have ht : t.val < 50 := lt_of_lt_of_eq t.isLt N_1
  have hr : ((cfg1.win 5).blk t).view.emb (ix2 p q) = ix2 (⟨t.val * 5000 + p.val, by omega⟩ : Fin 250000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  show k1_pay1 (iblk1 V c 0 t) (iblk1 V c 1 t) (iblk1 V c 2 t) (iblk1 V c 3 t) (iblk1 V c 4 t) (ix2 p q) = G V c (((cfg1.win 5).blk t).view.emb (ix2 p q))
  rw [hr, pay_apply]
  show _ = mlpAt (V c main_v25) (V c main_arg8) (V c main_v26) (V c main_arg10) (V c main_v27) ⟨t.val * 5000 + p.val, by omega⟩ q
  refine mlpAt_congr p _ q (fun k => ?_) ?_ ?_ ?_ ?_
  · show V c main_v25 (((cfg1.win 0).blk t).view.emb (ix2 p k)) = V c main_v25 (ix2 ⟨t.val * 5000 + p.val, by omega⟩ k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · funext y
    show V c main_arg8 (((cfg1.win 1).blk t).view.emb y) = V c main_arg8 y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  · funext y
    show V c main_v26 (((cfg1.win 2).blk t).view.emb y) = V c main_v26 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  · funext y
    show V c main_arg10 (((cfg1.win 3).blk t).view.emb y) = V c main_arg10 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  · funext y
    show V c main_v27 (((cfg1.win 4).blk t).view.emb y) = V c main_v27 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega

/-- An index of the result array is in point t's block iff each coordinate is in the block's range on its axis. -/
theorem mem_blk (t : Fin cfg1.N) (i : S250000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v28).slice (win1_5.rect t)).set ↔ _
  rw [View.set_slice_whole, Rect.mem_set_unit]
  exact Iff.rfl

/-- Every row of the result lies in the block of the point its row number divided by 5000 names. -/
theorem cover (i : S250000x128.Idx) : ∃ t : Fin cfg1.N, (cfg1.win 5).flush t = true ∧ i ∈ ((cfg1.win 5).blk t).view.set := by
  have hi0 : (i 0).val < 250000 := (i 0).isLt
  have hi1 : (i 1).val < 128 := (i 1).isLt
  let t : Fin cfg1.N := ⟨(i 0).val / 5000, by rw [show cfg1.N = 50 from N_1]; omega⟩
  obtain ⟨e0, e1, e2, e3, e4, e5, e6, e7, e8, e9, e10, e11⟩ := idx_facts t
  have e10' : win1_5.index t (0 : Fin 2) = (i 0).val / 5000 := e10
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The result array after the region is the message network of the arrays the region was entered with. -/
theorem final (c : Dev nD) : (dat1 V c).arrAt 5 cfg1.N = G V c :=
  (dat1 V c).arrAt_eq_of_cover 5 (G V c) (fun t _ => flushed_eq V c t) (cover)

end Cert.KernelIdeal.Msg1

end
-- ==== Proof.Msg2.lean ====
/-
  The third relation's message network, region by region of the pipeline: what the whole result array holds once every grid
  point has written its block back.

  The region cuts the T = 250000 rows of its input x into 50 blocks of 5000 rows; the two weight matrices and the two one-row
  biases are each one block, the same at every point. At point t the body computes, from rows 5000 t … 5000 t + 4999 of x,
  the same rows of  max (x · w1 + b1, 0) · w2 + b2  and writes them to the same rows of the result. An entry of that matrix
  depends on one row of x only, so block t of the result is block t of the message network of the WHOLE x; the 50 blocks
  tile the rows, hence the result array is the message network of x.
-/
import proofs.«126759_j52776558133695_1_alg».proof.Proof.Gen.KernelIdeal.Frame
import proofs.«126759_j52776558133695_1_alg».proof.Proof.LibPlainMatmul
import proofs.«126759_j52776558133695_1_alg».proof.Proof.Layer
import Idealize.ShloMosaic.Lib.Pipeline.Value

set_option maxRecDepth 16384

noncomputable section

namespace Cert.KernelIdeal.Msg2

open Cert.KernelIdeal Cert.KernelIdeal.Gen Cert.Layer Cert.Lib Idealize.ShloMosaic Idealize.ShloMosaic.TcCoe
open Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of its block: the message network of the loaded blocks. -/
theorem pay_apply (v0 : Vec Ideal S5000x192 .f32) (v3 : Vec Ideal S192x192 .f32) (v6 : Vec Ideal S1x192 .f32)
    (v13 : Vec Ideal S192x192 .f32) (v16 : Vec Ideal S1x192 .f32) (p : Fin 5000) (q : Fin 192) :
    k2_pay1 (F := Ideal) v0 v3 v6 v13 v16 (ix2 p q) = mlpAt v0 v3 v6 v13 v16 p q := by
  unfold k2_pay1 mlpAt denseAt
  simp only [addf_apply, maximumf_apply, truncf_apply, broadcast_apply, shapeCast_self,
    PlainMatmul.apply dot_S5000x192_S192x192_S5000x192_1_0_0_1_n_n rfl rfl rfl rfl rfl rfl, PlainMatmul.rowSpread_apply]
  rfl

/-- The message network of the arrays as the region finds them. -/
abbrev G (c : Dev nD) : S250000x192.Idx → Elt Ideal .f32 :=
  mlp (V c main_v44) (V c main_arg12) (V c main_v45) (V c main_arg14) (V c main_v46)

/-- The printed index maps over the grid: the input's and the result's blocks move together down the rows, point t at
    block t; every other window stays at its one block. -/
theorem idx_facts : ∀ t : Fin cfg2.N,
    win2_0.index t (0 : Fin 2) = win2_5.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the message network of the whole input. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x192) hz, View.ld_unit_zero (S := S192x192) hz, View.ld_unit_zero (S := S1x192) hz]
  obtain ⟨e0, e1, e2, e3, e4, e5, e6, e7, e8, e9, e10, e11⟩ := idx_facts t
  funext j
  obtain ⟨p, q, rfl⟩ : ∃ (p : Fin 5000) (q : Fin 192), j = ix2 p q := ⟨j 0, j 1, eq_ix2 j⟩
  have ht : t.val < 50 := lt_of_lt_of_eq t.isLt N_2
  have hr : ((cfg2.win 5).blk t).view.emb (ix2 p q) = ix2 (⟨t.val * 5000 + p.val, by omega⟩ : Fin 250000) q := by
    funext a; apply Fin.ext
    match a with
    | ⟨0, _⟩ => show win2_5.index t (0 : Fin 2) * 5000 + 1 * p.val = t.val * 5000 + p.val; omega
    | ⟨1, _⟩ => show win2_5.index t (1 : Fin 2) * 192 + 1 * q.val = q.val; omega
  show k2_pay1 (iblk2 V c 0 t) (iblk2 V c 1 t) (iblk2 V c 2 t) (iblk2 V c 3 t) (iblk2 V c 4 t) (ix2 p q) = G V c (((cfg2.win 5).blk t).view.emb (ix2 p q))
  rw [hr, pay_apply]
  show _ = mlpAt (V c main_v44) (V c main_arg12) (V c main_v45) (V c main_arg14) (V c main_v46) ⟨t.val * 5000 + p.val, by omega⟩ q
  refine mlpAt_congr p _ q (fun k => ?_) ?_ ?_ ?_ ?_
  · show V c main_v44 (((cfg2.win 0).blk t).view.emb (ix2 p k)) = V c main_v44 (ix2 ⟨t.val * 5000 + p.val, by omega⟩ k)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 192 + 1 * k.val = k.val; omega
  · funext y
    show V c main_arg12 (((cfg2.win 1).blk t).view.emb y) = V c main_arg12 y
    refine congrArg _ (funext fun a => Fin.ext ?_)
    match a with
    | ⟨0, _⟩ => show win2_1.index t (0 : Fin 2) * 192 + 1 * (y 0).val = (y 0).val; omega
    | ⟨1, _⟩ => show win2_1.index t (1 : Fin 2) * 192 + 1 * (y 1).val = (y 1).val; omega
  · funext y
    show V c main_v45 (((cfg2.win 2).blk t).view.emb y) = V c main_v45 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 192 + 1 * (y 1).val = (y 1).val; omega
  · funext y
    show V c main_arg14 (((cfg2.win 3).blk t).view.emb y) = V c main_arg14 y
    refine congrArg _ (funext fun a => Fin.ext ?_)
    match a with
    | ⟨0, _⟩ => show win2_3.index t (0 : Fin 2) * 192 + 1 * (y 0).val = (y 0).val; omega
    | ⟨1, _⟩ => show win2_3.index t (1 : Fin 2) * 192 + 1 * (y 1).val = (y 1).val; omega
  · funext y
    show V c main_v46 (((cfg2.win 4).blk t).view.emb y) = V c main_v46 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 192 + 1 * (y 1).val = (y 1).val; omega

/-- An index of the result array is in point t's block iff each coordinate is in the block's range on its axis. -/
theorem mem_blk (t : Fin cfg2.N) (i : S250000x192.Idx) :
    i ∈ ((cfg2.win 5).blk t).view.set ↔ ∀ a : Fin 2, win2_5.index t a * S5000x192.size a ≤ (i a).val ∧ (i a).val < win2_5.index t a * S5000x192.size a + S5000x192.size a := by
  show i ∈ ((View.whole main_v47).slice (win2_5.rect t)).set ↔ _
  rw [View.set_slice_whole, Rect.mem_set_unit]
  exact Iff.rfl

/-- Every row of the result lies in the block of the point its row number divided by 5000 names. -/
theorem cover (i : S250000x192.Idx) : ∃ t : Fin cfg2.N, (cfg2.win 5).flush t = true ∧ i ∈ ((cfg2.win 5).blk t).view.set := by
  have hi0 : (i 0).val < 250000 := (i 0).isLt
  have hi1 : (i 1).val < 192 := (i 1).isLt
  let t : Fin cfg2.N := ⟨(i 0).val / 5000, by rw [show cfg2.N = 50 from N_2]; omega⟩
  obtain ⟨e0, e1, e2, e3, e4, e5, e6, e7, e8, e9, e10, e11⟩ := idx_facts t
  have e10' : win2_5.index t (0 : Fin 2) = (i 0).val / 5000 := e10
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 192 ≤ (i 1).val ∧ (i 1).val < win2_5.index t (1 : Fin 2) * 192 + 192; omega

/-- The result array after the region is the message network of the arrays the region was entered with. -/
theorem final (c : Dev nD) : (dat2 V c).arrAt 5 cfg2.N = G V c :=
  (dat2 V c).arrAt_eq_of_cover 5 (G V c) (fun t _ => flushed_eq V c t) (cover)

end Cert.KernelIdeal.Msg2

end
-- ==== Proof.Upd3.lean ====
/-
  The update network's region: what the whole result array holds once every grid point has written its block back.

  The region cuts the 200000 rows of its two inputs, the summed messages s and the node states n, into 25 blocks of 8000
  rows; the two halves of the first weight matrix, the second weight matrix and the two one-row biases are each one block,
  the same at every point. At point t the body computes, from rows 8000 t … 8000 t + 7999 of s and of n, the same rows of
  max (s · wa + n · wb + b1, 0) · w2 + b2  and writes them to the same rows of the result. An entry of that matrix depends on
  one row of s and one row of n only, so block t of the result is block t of the update network of the WHOLE inputs; the 25
  blocks tile the rows, hence the result array is the update network of the arrays the region was entered with.
-/
import proofs.«126759_j52776558133695_1_alg».proof.Proof.Gen.KernelIdeal.Frame
import proofs.«126759_j52776558133695_1_alg».proof.Proof.LibPlainMatmul
import proofs.«126759_j52776558133695_1_alg».proof.Proof.Layer
import Idealize.ShloMosaic.Lib.Pipeline.Value

set_option maxRecDepth 16384

noncomputable section

namespace Cert.KernelIdeal.Upd3

open Cert.KernelIdeal Cert.KernelIdeal.Gen Cert.Layer Cert.Lib Idealize.ShloMosaic Idealize.ShloMosaic.TcCoe
open Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of its block: the update network of the loaded blocks. -/
theorem pay_apply (v0 v3 : Vec Ideal S8000x64 .f32) (v5 v8 : Vec Ideal S64x128 .f32) (v14 : Vec Ideal S1x128 .f32)
    (v21 : Vec Ideal S128x64 .f32) (v24 : Vec Ideal S1x64 .f32) (p : Fin 8000) (q : Fin 64) :
    k3_pay1 (F := Ideal) v0 v3 v5 v8 v14 v21 v24 (ix2 p q) = updAt v0 v3 v5 v8 v14 v21 v24 p q := by
  unfold k3_pay1 updAt
  simp only [addf_apply, maximumf_apply, truncf_apply, broadcast_apply, shapeCast_self,
    PlainMatmul.apply dot_S8000x64_S64x128_S8000x128_1_0_0_1_n_n rfl rfl rfl rfl rfl rfl,
    PlainMatmul.apply dot_S8000x128_S128x64_S8000x64_1_0_0_1_n_n rfl rfl rfl rfl rfl rfl, PlainMatmul.rowSpread_apply]
  rfl

/-- The update network of the arrays as the region finds them. -/
abbrev G (c : Dev nD) : S200000x64.Idx → Elt Ideal .f32 :=
  upd (V c main_v55) (V c main_arg0) (V c main_v56) (V c main_v57) (V c main_v58) (V c main_arg18) (V c main_v59)

/-- The printed index maps over the grid: the two inputs' and the result's blocks move together down the rows, point t at
    block t; every other window stays at its one block. -/
theorem idx_facts : ∀ t : Fin cfg3.N,
    win3_0.index t (0 : Fin 2) = win3_7.index t (0 : Fin 2) ∧ win3_0.index t (1 : Fin 2) = 0
    ∧ win3_1.index t (0 : Fin 2) = win3_7.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- What point t writes back is block t of the update network of the whole inputs. -/
theorem flushed_eq (c : Dev nD) (t : Fin cfg3.N) :
    (dat3 V c).flushed 7 t = ((cfg3.win 7).blk t).view.read (Elt Ideal) (G V c) := by
  show (cfg3.win 7).cut (grid3.coords t) ((dat3 V c).after 7 t) = _
  rw [after3_7]
  unfold out3_7
  rw [View.canon_unit_zero hz]
  simp only [View.ld_unit_zero (S := S8000x64) hz, View.ld_unit_zero (S := S64x128) hz, View.ld_unit_zero (S := S1x128) hz,
    View.ld_unit_zero (S := S128x64) hz, View.ld_unit_zero (S := S1x64) hz]
  obtain ⟨e0, e1, e2, e3, e4, e5, e6, e7, e8, e9, e10, e11, e12, e13, e14, e15⟩ := idx_facts t
  funext j
  obtain ⟨p, q, rfl⟩ : ∃ (p : Fin 8000) (q : Fin 64), j = ix2 p q := ⟨j 0, j 1, eq_ix2 j⟩
  have ht : t.val < 25 := lt_of_lt_of_eq t.isLt N_3
  have hr : ((cfg3.win 7).blk t).view.emb (ix2 p q) = ix2 (⟨t.val * 8000 + p.val, by omega⟩ : Fin 200000) q := by
    funext a; apply Fin.ext
    match a with
    | ⟨0, _⟩ => show win3_7.index t (0 : Fin 2) * 8000 + 1 * p.val = t.val * 8000 + p.val; omega
    | ⟨1, _⟩ => show win3_7.index t (1 : Fin 2) * 64 + 1 * q.val = q.val; omega
  show k3_pay1 (iblk3 V c 0 t) (iblk3 V c 1 t) (iblk3 V c 2 t) (iblk3 V c 3 t) (iblk3 V c 4 t) (iblk3 V c 5 t) (iblk3 V c 6 t) (ix2 p q)
    = G V c (((cfg3.win 7).blk t).view.emb (ix2 p q))
  rw [hr, pay_apply]
  show _ = updAt (V c main_v55) (V c main_arg0) (V c main_v56) (V c main_v57) (V c main_v58) (V c main_arg18) (V c main_v59)
    ⟨t.val * 8000 + p.val, by omega⟩ q
  refine updAt_congr p _ q (fun k => ?_) (fun k => ?_) ?_ ?_ ?_ ?_ ?_
  · show V c main_v55 (((cfg3.win 0).blk t).view.emb (ix2 p k)) = V c main_v55 (ix2 ⟨t.val * 8000 + p.val, by omega⟩ k)
    refine congrArg _ (funext fun a => Fin.ext ?_)
    match a with
    | ⟨0, _⟩ => show win3_0.index t (0 : Fin 2) * 8000 + 1 * p.val = t.val * 8000 + p.val; omega
    | ⟨1, _⟩ => show win3_0.index t (1 : Fin 2) * 64 + 1 * k.val = k.val; omega
  · show V c main_arg0 (((cfg3.win 1).blk t).view.emb (ix2 p k)) = V c main_arg0 (ix2 ⟨t.val * 8000 + p.val, by omega⟩ k)
    refine congrArg _ (funext fun a => Fin.ext ?_)
    match a with
    | ⟨0, _⟩ => show win3_1.index t (0 : Fin 2) * 8000 + 1 * p.val = t.val * 8000 + p.val; omega
    | ⟨1, _⟩ => show win3_1.index t (1 : Fin 2) * 64 + 1 * k.val = k.val; omega
  · funext y
    show V c main_v56 (((cfg3.win 2).blk t).view.emb y) = V c main_v56 y
    refine congrArg _ (funext fun a => Fin.ext ?_)
    match a with
    | ⟨0, _⟩ => show win3_2.index t (0 : Fin 2) * 64 + 1 * (y 0).val = (y 0).val; omega
    | ⟨1, _⟩ => show win3_2.index t (1 : Fin 2) * 128 + 1 * (y 1).val = (y 1).val; omega
  · funext y
    show V c main_v57 (((cfg3.win 3).blk t).view.emb y) = V c main_v57 y
    refine congrArg _ (funext fun a => Fin.ext ?_)
    match a with
    | ⟨0, _⟩ => show win3_3.index t (0 : Fin 2) * 64 + 1 * (y 0).val = (y 0).val; omega
    | ⟨1, _⟩ => show win3_3.index t (1 : Fin 2) * 128 + 1 * (y 1).val = (y 1).val; omega
  · funext y
    show V c main_v58 (((cfg3.win 4).blk t).view.emb y) = V c main_v58 y
    refine congrArg _ (funext fun a => Fin.ext ?_)
    match a with
    | ⟨0, _⟩ => show win3_4.index t (0 : Fin 2) * 1 + 1 * (y 0).val = (y 0).val; omega
    | ⟨1, _⟩ => show win3_4.index t (1 : Fin 2) * 128 + 1 * (y 1).val = (y 1).val; omega
  · funext y
    show V c main_arg18 (((cfg3.win 5).blk t).view.emb y) = V c main_arg18 y
    refine congrArg _ (funext fun a => Fin.ext ?_)
    match a with
    | ⟨0, _⟩ => show win3_5.index t (0 : Fin 2) * 128 + 1 * (y 0).val = (y 0).val; omega
    | ⟨1, _⟩ => show win3_5.index t (1 : Fin 2) * 64 + 1 * (y 1).val = (y 1).val; omega
  · funext y
    show V c main_v59 (((cfg3.win 6).blk t).view.emb y) = V c main_v59 y
    refine congrArg _ (funext fun a => Fin.ext ?_)
    match a with
    | ⟨0, _⟩ => show win3_6.index t (0 : Fin 2) * 1 + 1 * (y 0).val = (y 0).val; omega
    | ⟨1, _⟩ => show win3_6.index t (1 : Fin 2) * 64 + 1 * (y 1).val = (y 1).val; omega

/-- An index of the result array is in point t's block iff each coordinate is in the block's range on its axis. -/
theorem mem_blk (t : Fin cfg3.N) (i : S200000x64.Idx) :
    i ∈ ((cfg3.win 7).blk t).view.set ↔ ∀ a : Fin 2, win3_7.index t a * S8000x64.size a ≤ (i a).val ∧ (i a).val < win3_7.index t a * S8000x64.size a + S8000x64.size a := by
  show i ∈ ((View.whole main_v60).slice (win3_7.rect t)).set ↔ _
  rw [View.set_slice_whole, Rect.mem_set_unit]
  exact Iff.rfl

/-- Every row of the result lies in the block of the point its row number divided by 8000 names. -/
theorem cover (i : S200000x64.Idx) : ∃ t : Fin cfg3.N, (cfg3.win 7).flush t = true ∧ i ∈ ((cfg3.win 7).blk t).view.set := by
  have hi0 : (i 0).val < 200000 := (i 0).isLt
  have hi1 : (i 1).val < 64 := (i 1).isLt
  let t : Fin cfg3.N := ⟨(i 0).val / 8000, by rw [show cfg3.N = 25 from N_3]; omega⟩
  obtain ⟨e0, e1, e2, e3, e4, e5, e6, e7, e8, e9, e10, e11, e12, e13, e14, e15⟩ := idx_facts t
  have e14' : win3_7.index t (0 : Fin 2) = (i 0).val / 8000 := e14
  refine ⟨t, flush3_7 t, ?_⟩
  rw [mem_blk]
  intro a
  match a with
  | ⟨0, _⟩ => show win3_7.index t (0 : Fin 2) * 8000 ≤ (i 0).val ∧ (i 0).val < win3_7.index t (0 : Fin 2) * 8000 + 8000; omega
  | ⟨1, _⟩ => show win3_7.index t (1 : Fin 2) * 64 ≤ (i 1).val ∧ (i 1).val < win3_7.index t (1 : Fin 2) * 64 + 64; omega

/-- The result array after the region is the update network of the arrays the region was entered with. -/
theorem final (c : Dev nD) : (dat3 V c).arrAt 7 cfg3.N = G V c :=
  (dat3 V c).arrAt_eq_of_cover 7 (G V c) (fun t _ => flushed_eq V c t) (cover)

end Cert.KernelIdeal.Upd3

end
-- ==== Proof.Model.lean ====
/-
  The whole message-passing step as ONE function of the twenty argument arrays, at the ideal values.

  For each of the three relations (arities 1, 2, 3): an index below zero is wrapped once by the number of nodes, the
  indexed rows of the node states are gathered, the rows of one ground atom are laid side by side (a re-reading of the same
  row-major sequence), the relation's message network is applied, the messages are laid back one row per index and added
  into the running sum of messages at the same indices. The update network then reads the summed messages beside the node
  states, with the first weight matrix as its upper and lower halves and the biases as one-row matrices.

  The gather and the scatter-add are carried as they are printed: nothing is proved about them, they are the same
  functions on both sides of the comparison.
-/
import proofs.«126759_j52776558133695_1_alg».proof.KernelIdeal
import proofs.«126759_j52776558133695_1_alg».proof.Proof.Gen.KernelIdeal
import proofs.«126759_j52776558133695_1_alg».proof.Proof.Layer

noncomputable section

namespace Cert.KernelIdeal.Model

open Cert.KernelIdeal Cert.Layer Idealize.ShloMosaic
open Facts₀ Facts

/-- The twenty argument arrays. -/
structure Args where
  nodes : FVec Ideal S200000x64 .f32
  idx1 : IVec S250000 32
  idx2 : IVec S500000 32
  idx3 : IVec S750000 32
  w1a : FVec Ideal S64x64 .f32
  b1a : FVec Ideal S64 .f32
  w2a : FVec Ideal S64x64 .f32
  b2a : FVec Ideal S64 .f32
  w1b : FVec Ideal S128x128 .f32
  b1b : FVec Ideal S128 .f32
  w2b : FVec Ideal S128x128 .f32
  b2b : FVec Ideal S128 .f32
  w1c : FVec Ideal S192x192 .f32
  b1c : FVec Ideal S192 .f32
  w2c : FVec Ideal S192x192 .f32
  b2c : FVec Ideal S192 .f32
  wu1 : FVec Ideal S128x128 .f32
  bu1 : FVec Ideal S128 .f32
  wu2 : FVec Ideal S128x64 .f32
  bu2 : FVec Ideal S64 .f32

variable (A : Args)

/-- The first relation's indices, wrapped once where negative, as a column. -/
def col1 : IVec S250000x1 32 :=
  broadcastInDim S250000x1 ![0] bcast_S250000_S250000x1_0 (select (cmpi .slt A.idx1 (broadcastInDim S250000 ![] bcast_S_S250000 (constantI S_ 32 0#32))) (addi A.idx1 (broadcastInDim S250000 ![] bcast_S_S250000 (constantI S_ 32 200000#32))) A.idx1)

/-- The second relation's. -/
def col2 : IVec S500000x1 32 :=
  broadcastInDim S500000x1 ![0] bcast_S500000_S500000x1_0 (select (cmpi .slt A.idx2 (broadcastInDim S500000 ![] bcast_S_S500000 (constantI S_ 32 0#32))) (addi A.idx2 (broadcastInDim S500000 ![] bcast_S_S500000 (constantI S_ 32 200000#32))) A.idx2)

/-- The third relation's. -/
def col3 : IVec S750000x1 32 :=
  broadcastInDim S750000x1 ![0] bcast_S750000_S750000x1_0 (select (cmpi .slt A.idx3 (broadcastInDim S750000 ![] bcast_S_S750000 (constantI S_ 32 0#32))) (addi A.idx3 (broadcastInDim S750000 ![] bcast_S_S750000 (constantI S_ 32 200000#32))) A.idx3)

/-- The gathered rows of each relation, one ground atom per row. -/
def in1 : FVec Ideal S250000x64 .f32 := Host.gather gather_S200000x64_S250000x1_S250000x64_1_0_n_n_0_1_164 A.nodes (col1 A)
def in2 : FVec Ideal S250000x128 .f32 :=
  shapeCast S250000x128 (Host.gather gather_S200000x64_S500000x1_S500000x64_1_0_n_n_0_1_164 A.nodes (col2 A)) shapeCasts_S500000x64_S250000x128
def in3 : FVec Ideal S250000x192 .f32 :=
  shapeCast S250000x192 (Host.gather gather_S200000x64_S750000x1_S750000x64_1_0_n_n_0_1_164 A.nodes (col3 A)) shapeCasts_S750000x64_S250000x192

/-- Each relation's messages. -/
def msg1 : FVec Ideal S250000x64 .f32 :=
  mlp (in1 A) A.w1a (shapeCast S1x64 A.b1a shapeCasts_S64_S1x64) A.w2a (shapeCast S1x64 A.b2a shapeCasts_S64_S1x64)
def msg2 : FVec Ideal S250000x128 .f32 :=
  mlp (in2 A) A.w1b (shapeCast S1x128 A.b1b shapeCasts_S128_S1x128) A.w2b (shapeCast S1x128 A.b2b shapeCasts_S128_S1x128)
def msg3 : FVec Ideal S250000x192 .f32 :=
  mlp (in3 A) A.w1c (shapeCast S1x192 A.b1c shapeCasts_S192_S1x192) A.w2c (shapeCast S1x192 A.b2c shapeCasts_S192_S1x192)

/-- The running sum of messages after each relation. -/
def sum1 : FVec Ideal S200000x64 .f32 :=
  Host.scatterAdd scatter_S200000x64_S250000x1_S250000x64_1_0_0_1 (broadcastInDim S200000x64 ![] bcast_S_S200000x64 (constant S_ .f32 0x00000000#32)) (col1 A) (msg1 A)
def sum2 : FVec Ideal S200000x64 .f32 :=
  Host.scatterAdd scatter_S200000x64_S500000x1_S500000x64_1_0_0_1 (sum1 A) (col2 A) (shapeCast S500000x64 (msg2 A) shapeCasts_S250000x128_S500000x64)
def sum3 : FVec Ideal S200000x64 .f32 :=
  Host.scatterAdd scatter_S200000x64_S750000x1_S750000x64_1_0_0_1 (sum2 A) (col3 A) (shapeCast S750000x64 (msg3 A) shapeCasts_S250000x192_S750000x64)

/-- The new node states. -/
def out : FVec Ideal S200000x64 .f32 :=
  upd (sum3 A) A.nodes (extractStridedSlice S64x128 ![0, 0] A.wu1 slices_S128x128_S64x128_0_0)
    (extractStridedSlice S64x128 ![64, 0] A.wu1 slices_S128x128_S64x128_64_0) (shapeCast S1x128 A.bu1 shapeCasts_S128_S1x128) A.wu2
    (shapeCast S1x64 A.bu2 shapeCasts_S64_S1x64)

end Cert.KernelIdeal.Model

end
-- ==== Proof.KeptArgs.lean ====
/-
  An argument array holds its launch contents wherever the program reads it.

  No host operation writes an argument array and no region has one as its result array, so at every boundary between a host
  stretch and a region an argument array still holds what it was launched with. One line per boundary and per argument read
  there or later: after a region a buffer that is none of the region's arrays is as it was at the region's entry; through a
  host stretch a buffer none of its operations writes is as it was at the stretch's start.
-/
import proofs.«126759_j52776558133695_1_alg».proof.Proof.Gen.KernelIdeal.Frame
import Idealize.ShloMosaic.PureOps.Ideal
import Idealize.ShloMosaic.Lib.StableHlo.Run

set_option maxRecDepth 16384

noncomputable section

namespace Cert.KernelIdeal.Kept

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- A buffer at the first region's entry, read through the first host stretch down to the launch contents. -/
macro "pass0" : tactic => `(tactic| (show StableHlo.after hostOps0 (W0 _ _ _) _ = _; after_results <;> rfl))

/-! ## After the first region -/

theorem w2_arg0 : W2 m ρ c (Proc.devRef .tc main_arg0) = m ((c : Thread nD τ).loc main_arg0) :=
  (W2_of_ne m ρ c main_arg0 (by decide)).trans (by pass0)
theorem w2_arg1 : W2 m ρ c (Proc.devRef .tc main_arg1) = m ((c : Thread nD τ).loc main_arg1) :=
  (W2_of_ne m ρ c main_arg1 (by decide)).trans (by pass0)
theorem w2_arg2 : W2 m ρ c (Proc.devRef .tc main_arg2) = m ((c : Thread nD τ).loc main_arg2) :=
  (W2_of_ne m ρ c main_arg2 (by decide)).trans (by pass0)
theorem w2_arg3 : W2 m ρ c (Proc.devRef .tc main_arg3) = m ((c : Thread nD τ).loc main_arg3) :=
  (W2_of_ne m ρ c main_arg3 (by decide)).trans (by pass0)
theorem w2_arg8 : W2 m ρ c (Proc.devRef .tc main_arg8) = m ((c : Thread nD τ).loc main_arg8) :=
  (W2_of_ne m ρ c main_arg8 (by decide)).trans (by pass0)
theorem w2_arg9 : W2 m ρ c (Proc.devRef .tc main_arg9) = m ((c : Thread nD τ).loc main_arg9) :=
  (W2_of_ne m ρ c main_arg9 (by decide)).trans (by pass0)
theorem w2_arg10 : W2 m ρ c (Proc.devRef .tc main_arg10) = m ((c : Thread nD τ).loc main_arg10) :=
  (W2_of_ne m ρ c main_arg10 (by decide)).trans (by pass0)
theorem w2_arg11 : W2 m ρ c (Proc.devRef .tc main_arg11) = m ((c : Thread nD τ).loc main_arg11) :=
  (W2_of_ne m ρ c main_arg11 (by decide)).trans (by pass0)
theorem w2_arg12 : W2 m ρ c (Proc.devRef .tc main_arg12) = m ((c : Thread nD τ).loc main_arg12) :=
  (W2_of_ne m ρ c main_arg12 (by decide)).trans (by pass0)
theorem w2_arg13 : W2 m ρ c (Proc.devRef .tc main_arg13) = m ((c : Thread nD τ).loc main_arg13) :=
  (W2_of_ne m ρ c main_arg13 (by decide)).trans (by pass0)
theorem w2_arg14 : W2 m ρ c (Proc.devRef .tc main_arg14) = m ((c : Thread nD τ).loc main_arg14) :=
  (W2_of_ne m ρ c main_arg14 (by decide)).trans (by pass0)
theorem w2_arg15 : W2 m ρ c (Proc.devRef .tc main_arg15) = m ((c : Thread nD τ).loc main_arg15) :=
  (W2_of_ne m ρ c main_arg15 (by decide)).trans (by pass0)
theorem w2_arg16 : W2 m ρ c (Proc.devRef .tc main_arg16) = m ((c : Thread nD τ).loc main_arg16) :=
  (W2_of_ne m ρ c main_arg16 (by decide)).trans (by pass0)
theorem w2_arg17 : W2 m ρ c (Proc.devRef .tc main_arg17) = m ((c : Thread nD τ).loc main_arg17) :=
  (W2_of_ne m ρ c main_arg17 (by decide)).trans (by pass0)
theorem w2_arg18 : W2 m ρ c (Proc.devRef .tc main_arg18) = m ((c : Thread nD τ).loc main_arg18) :=
  (W2_of_ne m ρ c main_arg18 (by decide)).trans (by pass0)
theorem w2_arg19 : W2 m ρ c (Proc.devRef .tc main_arg19) = m ((c : Thread nD τ).loc main_arg19) :=
  (W2_of_ne m ρ c main_arg19 (by decide)).trans (by pass0)

/-! ## After the second region -/

theorem w4_arg0 : W4 m ρ c (Proc.devRef .tc main_arg0) = m ((c : Thread nD τ).loc main_arg0) :=
  (W4_of_ne m ρ c main_arg0 (by decide)).trans (by show StableHlo.after hostOps1 (W2 m ρ c) _ = _; after_results; exact w2_arg0 m ρ c)
theorem w4_arg2 : W4 m ρ c (Proc.devRef .tc main_arg2) = m ((c : Thread nD τ).loc main_arg2) :=
  (W4_of_ne m ρ c main_arg2 (by decide)).trans (by show StableHlo.after hostOps1 (W2 m ρ c) _ = _; after_results; exact w2_arg2 m ρ c)
theorem w4_arg3 : W4 m ρ c (Proc.devRef .tc main_arg3) = m ((c : Thread nD τ).loc main_arg3) :=
  (W4_of_ne m ρ c main_arg3 (by decide)).trans (by show StableHlo.after hostOps1 (W2 m ρ c) _ = _; after_results; exact w2_arg3 m ρ c)
theorem w4_arg12 : W4 m ρ c (Proc.devRef .tc main_arg12) = m ((c : Thread nD τ).loc main_arg12) :=
  (W4_of_ne m ρ c main_arg12 (by decide)).trans (by show StableHlo.after hostOps1 (W2 m ρ c) _ = _; after_results; exact w2_arg12 m ρ c)
theorem w4_arg13 : W4 m ρ c (Proc.devRef .tc main_arg13) = m ((c : Thread nD τ).loc main_arg13) :=
  (W4_of_ne m ρ c main_arg13 (by decide)).trans (by show StableHlo.after hostOps1 (W2 m ρ c) _ = _; after_results; exact w2_arg13 m ρ c)
theorem w4_arg14 : W4 m ρ c (Proc.devRef .tc main_arg14) = m ((c : Thread nD τ).loc main_arg14) :=
  (W4_of_ne m ρ c main_arg14 (by decide)).trans (by show StableHlo.after hostOps1 (W2 m ρ c) _ = _; after_results; exact w2_arg14 m ρ c)
theorem w4_arg15 : W4 m ρ c (Proc.devRef .tc main_arg15) = m ((c : Thread nD τ).loc main_arg15) :=
  (W4_of_ne m ρ c main_arg15 (by decide)).trans (by show StableHlo.after hostOps1 (W2 m ρ c) _ = _; after_results; exact w2_arg15 m ρ c)
theorem w4_arg16 : W4 m ρ c (Proc.devRef .tc main_arg16) = m ((c : Thread nD τ).loc main_arg16) :=
  (W4_of_ne m ρ c main_arg16 (by decide)).trans (by show StableHlo.after hostOps1 (W2 m ρ c) _ = _; after_results; exact w2_arg16 m ρ c)
theorem w4_arg17 : W4 m ρ c (Proc.devRef .tc main_arg17) = m ((c : Thread nD τ).loc main_arg17) :=
  (W4_of_ne m ρ c main_arg17 (by decide)).trans (by show StableHlo.after hostOps1 (W2 m ρ c) _ = _; after_results; exact w2_arg17 m ρ c)
theorem w4_arg18 : W4 m ρ c (Proc.devRef .tc main_arg18) = m ((c : Thread nD τ).loc main_arg18) :=
  (W4_of_ne m ρ c main_arg18 (by decide)).trans (by show StableHlo.after hostOps1 (W2 m ρ c) _ = _; after_results; exact w2_arg18 m ρ c)
theorem w4_arg19 : W4 m ρ c (Proc.devRef .tc main_arg19) = m ((c : Thread nD τ).loc main_arg19) :=
  (W4_of_ne m ρ c main_arg19 (by decide)).trans (by show StableHlo.after hostOps1 (W2 m ρ c) _ = _; after_results; exact w2_arg19 m ρ c)

/-! ## After the third region -/

theorem w6_arg0 : W6 m ρ c (Proc.devRef .tc main_arg0) = m ((c : Thread nD τ).loc main_arg0) :=
  (W6_of_ne m ρ c main_arg0 (by decide)).trans (by show StableHlo.after hostOps2 (W4 m ρ c) _ = _; after_results; exact w4_arg0 m ρ c)
theorem w6_arg3 : W6 m ρ c (Proc.devRef .tc main_arg3) = m ((c : Thread nD τ).loc main_arg3) :=
  (W6_of_ne m ρ c main_arg3 (by decide)).trans (by show StableHlo.after hostOps2 (W4 m ρ c) _ = _; after_results; exact w4_arg3 m ρ c)
theorem w6_arg16 : W6 m ρ c (Proc.devRef .tc main_arg16) = m ((c : Thread nD τ).loc main_arg16) :=
  (W6_of_ne m ρ c main_arg16 (by decide)).trans (by show StableHlo.after hostOps2 (W4 m ρ c) _ = _; after_results; exact w4_arg16 m ρ c)
theorem w6_arg17 : W6 m ρ c (Proc.devRef .tc main_arg17) = m ((c : Thread nD τ).loc main_arg17) :=
  (W6_of_ne m ρ c main_arg17 (by decide)).trans (by show StableHlo.after hostOps2 (W4 m ρ c) _ = _; after_results; exact w4_arg17 m ρ c)
theorem w6_arg18 : W6 m ρ c (Proc.devRef .tc main_arg18) = m ((c : Thread nD τ).loc main_arg18) :=
  (W6_of_ne m ρ c main_arg18 (by decide)).trans (by show StableHlo.after hostOps2 (W4 m ρ c) _ = _; after_results; exact w4_arg18 m ρ c)
theorem w6_arg19 : W6 m ρ c (Proc.devRef .tc main_arg19) = m ((c : Thread nD τ).loc main_arg19) :=
  (W6_of_ne m ρ c main_arg19 (by decide)).trans (by show StableHlo.after hostOps2 (W4 m ρ c) _ = _; after_results; exact w4_arg19 m ρ c)

end Cert.KernelIdeal.Kept

end
-- ==== Proof.KernelValue.lean ====
/-
  The kernel program's result as a function of the arrays it was launched with.

  The program is four host stretches with a pipelined region after each. Its buffers' contents are followed boundary by
  boundary: a host stretch computes each of its results from the contents at the stretch's start; a region leaves in its
  result array the network of the arrays it was entered with (the four region modules) and every other buffer alone. No
  operation and no region writes an argument array, so wherever an argument is read it still holds its launch contents.
  Read in order: the first relation's gathered rows and messages, the sum after the first scatter-add, the second relation's
  rows and messages, the second sum, the third relation's, the third sum, and at last the update network of that sum beside
  the node states: the model's `out` of the launch arrays.
-/
import proofs.«126759_j52776558133695_1_alg».proof.Proof.Gen.KernelIdeal.Frame
import proofs.«126759_j52776558133695_1_alg».proof.Proof.Msg0
import proofs.«126759_j52776558133695_1_alg».proof.Proof.Msg1
import proofs.«126759_j52776558133695_1_alg».proof.Proof.Msg2
import proofs.«126759_j52776558133695_1_alg».proof.Proof.Upd3
import proofs.«126759_j52776558133695_1_alg».proof.Proof.Model
import proofs.«126759_j52776558133695_1_alg».proof.Proof.KeptArgs
import Idealize.ShloMosaic.Lib.StableHlo.Run

set_option maxRecDepth 16384

noncomputable section

namespace Cert.KernelIdeal.Val

open Cert.KernelIdeal Cert.KernelIdeal.Gen Cert.KernelIdeal.Model Cert.KernelIdeal.Kept Cert.Layer Idealize.ShloMosaic Idealize.ShloMosaic.TcCoe
open Idealize.SL.Sem

variable (m : (ℓ : Loc nD τ sig) → Buf (Elt Ideal) ℓ) (ρ : Dev nD → PrngReg) (c : Dev nD)

/-- The argument arrays as launched. -/
def args : Args where
  nodes := m ((c : Thread nD τ).loc main_arg0)
  idx1 := m ((c : Thread nD τ).loc main_arg1)
  idx2 := m ((c : Thread nD τ).loc main_arg2)
  idx3 := m ((c : Thread nD τ).loc main_arg3)
  w1a := m ((c : Thread nD τ).loc main_arg4)
  b1a := m ((c : Thread nD τ).loc main_arg5)
  w2a := m ((c : Thread nD τ).loc main_arg6)
  b2a := m ((c : Thread nD τ).loc main_arg7)
  w1b := m ((c : Thread nD τ).loc main_arg8)
  b1b := m ((c : Thread nD τ).loc main_arg9)
  w2b := m ((c : Thread nD τ).loc main_arg10)
  b2b := m ((c : Thread nD τ).loc main_arg11)
  w1c := m ((c : Thread nD τ).loc main_arg12)
  b1c := m ((c : Thread nD τ).loc main_arg13)
  w2c := m ((c : Thread nD τ).loc main_arg14)
  b2c := m ((c : Thread nD τ).loc main_arg15)
  wu1 := m ((c : Thread nD τ).loc main_arg16)
  bu1 := m ((c : Thread nD τ).loc main_arg17)
  wu2 := m ((c : Thread nD τ).loc main_arg18)
  bu2 := m ((c : Thread nD τ).loc main_arg19)

/-! ## The first relation -/

theorem v1_in : V1 m ρ c main_v7 = in1 (args m c) := by
  show StableHlo.after hostOps0 (W0 m ρ c) (Proc.devRef .tc main_v7) = _; after_results_simp; rfl
theorem v1_w1 : V1 m ρ c main_arg4 = (args m c).w1a := by pass0
theorem v1_b1 : V1 m ρ c main_v8 = shapeCast S1x64 (args m c).b1a shapeCasts_S64_S1x64 := by pass0
theorem v1_w2 : V1 m ρ c main_arg6 = (args m c).w2a := by pass0
theorem v1_b2 : V1 m ρ c main_v9 = shapeCast S1x64 (args m c).b2a shapeCasts_S64_S1x64 := by pass0

/-- The first region leaves the first relation's messages in its result array. -/
theorem w2_msg : W2 m ρ c (Proc.devRef .tc main_v10) = msg1 (args m c) := by
  refine (W2_arr m ρ c 5).trans ((Msg0.final (V1 m ρ) c).trans ?_)
  show mlp (V1 m ρ c main_v7) (V1 m ρ c main_arg4) (V1 m ρ c main_v8) (V1 m ρ c main_arg6) (V1 m ρ c main_v9) = _
  rw [v1_in, v1_w1, v1_b1, v1_w2, v1_b2]; rfl

/-- The zero matrix the sums start from, still there after the first region. -/
theorem w2_zero : W2 m ρ c (Proc.devRef .tc main_v0) = broadcastInDim S200000x64 ![] bcast_S_S200000x64 (constant (F := Ideal) S_ .f32 0x00000000#32) :=
  (W2_of_ne m ρ c main_v0 (by decide)).trans (by pass0)

/-- The sum after the first relation's scatter-add. -/
theorem w3_sum : W3 m ρ c (Proc.devRef .tc main_v17) = sum1 (args m c) := by
  show StableHlo.after hostOps1 (W2 m ρ c) (Proc.devRef .tc main_v17) = _
  after_results_simp
  rw [w2_zero, w2_msg, w2_arg1]; rfl

/-! ## The second relation -/

theorem v3_in : V3 m ρ c main_v25 = in2 (args m c) := by
  show StableHlo.after hostOps1 (W2 m ρ c) (Proc.devRef .tc main_v25) = _
  after_results_simp
  rw [w2_arg0, w2_arg2]; rfl
theorem v3_w1 : V3 m ρ c main_arg8 = (args m c).w1b := by
  show StableHlo.after hostOps1 (W2 m ρ c) (Proc.devRef .tc main_arg8) = _; after_results_simp; exact w2_arg8 m ρ c
theorem v3_b1 : V3 m ρ c main_v26 = shapeCast S1x128 (args m c).b1b shapeCasts_S128_S1x128 := by
  show StableHlo.after hostOps1 (W2 m ρ c) (Proc.devRef .tc main_v26) = _; after_results_simp; rw [w2_arg9]; rfl
theorem v3_w2 : V3 m ρ c main_arg10 = (args m c).w2b := by
  show StableHlo.after hostOps1 (W2 m ρ c) (Proc.devRef .tc main_arg10) = _; after_results_simp; exact w2_arg10 m ρ c
theorem v3_b2 : V3 m ρ c main_v27 = shapeCast S1x128 (args m c).b2b shapeCasts_S128_S1x128 := by
  show StableHlo.after hostOps1 (W2 m ρ c) (Proc.devRef .tc main_v27) = _; after_results_simp; rw [w2_arg11]; rfl

/-- The second region leaves the second relation's messages in its result array. -/
theorem w4_msg : W4 m ρ c (Proc.devRef .tc main_v28) = msg2 (args m c) := by
  refine (W4_arr m ρ c 5).trans ((Msg1.final (V3 m ρ) c).trans ?_)
  show mlp (V3 m ρ c main_v25) (V3 m ρ c main_arg8) (V3 m ρ c main_v26) (V3 m ρ c main_arg10) (V3 m ρ c main_v27) = _
  rw [v3_in, v3_w1, v3_b1, v3_w2, v3_b2]; rfl

theorem w4_sum : W4 m ρ c (Proc.devRef .tc main_v17) = sum1 (args m c) :=
  (W4_of_ne m ρ c main_v17 (by decide)).trans (w3_sum m ρ c)

/-- The sum after the second relation's scatter-add. -/
theorem w5_sum : W5 m ρ c (Proc.devRef .tc main_v36) = sum2 (args m c) := by
  show StableHlo.after hostOps2 (W4 m ρ c) (Proc.devRef .tc main_v36) = _
  after_results_simp
  rw [w4_sum, w4_msg, w4_arg2]; rfl

/-! ## The third relation -/

theorem v5_in : V5 m ρ c main_v44 = in3 (args m c) := by
  show StableHlo.after hostOps2 (W4 m ρ c) (Proc.devRef .tc main_v44) = _
  after_results_simp
  rw [w4_arg0, w4_arg3]; rfl
theorem v5_w1 : V5 m ρ c main_arg12 = (args m c).w1c := by
  show StableHlo.after hostOps2 (W4 m ρ c) (Proc.devRef .tc main_arg12) = _; after_results_simp; exact w4_arg12 m ρ c
theorem v5_b1 : V5 m ρ c main_v45 = shapeCast S1x192 (args m c).b1c shapeCasts_S192_S1x192 := by
  show StableHlo.after hostOps2 (W4 m ρ c) (Proc.devRef .tc main_v45) = _; after_results_simp; rw [w4_arg13]; rfl
theorem v5_w2 : V5 m ρ c main_arg14 = (args m c).w2c := by
  show StableHlo.after hostOps2 (W4 m ρ c) (Proc.devRef .tc main_arg14) = _; after_results_simp; exact w4_arg14 m ρ c
theorem v5_b2 : V5 m ρ c main_v46 = shapeCast S1x192 (args m c).b2c shapeCasts_S192_S1x192 := by
  show StableHlo.after hostOps2 (W4 m ρ c) (Proc.devRef .tc main_v46) = _; after_results_simp; rw [w4_arg15]; rfl

/-- The third region leaves the third relation's messages in its result array. -/
theorem w6_msg : W6 m ρ c (Proc.devRef .tc main_v47) = msg3 (args m c) := by
  refine (W6_arr m ρ c 5).trans ((Msg2.final (V5 m ρ) c).trans ?_)
  show mlp (V5 m ρ c main_v44) (V5 m ρ c main_arg12) (V5 m ρ c main_v45) (V5 m ρ c main_arg14) (V5 m ρ c main_v46) = _
  rw [v5_in, v5_w1, v5_b1, v5_w2, v5_b2]; rfl

theorem w6_sum : W6 m ρ c (Proc.devRef .tc main_v36) = sum2 (args m c) :=
  (W6_of_ne m ρ c main_v36 (by decide)).trans (w5_sum m ρ c)

/-! ## The update -/

/-- The sum after the third relation's scatter-add. -/
theorem v7_sum : V7 m ρ c main_v55 = sum3 (args m c) := by
  show StableHlo.after hostOps3 (W6 m ρ c) (Proc.devRef .tc main_v55) = _
  after_results_simp
  rw [w6_sum, w6_msg, w6_arg3]; rfl
theorem v7_nodes : V7 m ρ c main_arg0 = (args m c).nodes := by
  show StableHlo.after hostOps3 (W6 m ρ c) (Proc.devRef .tc main_arg0) = _; after_results_simp; exact w6_arg0 m ρ c
theorem v7_wa : V7 m ρ c main_v56 = extractStridedSlice S64x128 ![0, 0] (args m c).wu1 slices_S128x128_S64x128_0_0 := by
  show StableHlo.after hostOps3 (W6 m ρ c) (Proc.devRef .tc main_v56) = _; after_results_simp; rw [w6_arg16]; rfl
theorem v7_wb : V7 m ρ c main_v57 = extractStridedSlice S64x128 ![64, 0] (args m c).wu1 slices_S128x128_S64x128_64_0 := by
  show StableHlo.after hostOps3 (W6 m ρ c) (Proc.devRef .tc main_v57) = _; after_results_simp; rw [w6_arg16]; rfl
theorem v7_b1 : V7 m ρ c main_v58 = shapeCast S1x128 (args m c).bu1 shapeCasts_S128_S1x128 := by
  show StableHlo.after hostOps3 (W6 m ρ c) (Proc.devRef .tc main_v58) = _; after_results_simp; rw [w6_arg17]; rfl
theorem v7_w2 : V7 m ρ c main_arg18 = (args m c).wu2 := by
  show StableHlo.after hostOps3 (W6 m ρ c) (Proc.devRef .tc main_arg18) = _; after_results_simp; exact w6_arg18 m ρ c
theorem v7_b2 : V7 m ρ c main_v59 = shapeCast S1x64 (args m c).bu2 shapeCasts_S64_S1x64 := by
  show StableHlo.after hostOps3 (W6 m ρ c) (Proc.devRef .tc main_v59) = _; after_results_simp; rw [w6_arg19]; rfl

/-- The program's result buffer after the last region: the model's new node states of the launch arrays. -/
theorem result : W8 m ρ c (Proc.devRef .tc main_v60) = out (args m c) := by
  refine (W8_arr m ρ c 7).trans ((Upd3.final (V7 m ρ) c).trans ?_)
  show upd (V7 m ρ c main_v55) (V7 m ρ c main_arg0) (V7 m ρ c main_v56) (V7 m ρ c main_v57) (V7 m ρ c main_v58) (V7 m ρ c main_arg18) (V7 m ρ c main_v59) = _
  rw [v7_sum, v7_nodes, v7_wa, v7_wb, v7_b1, v7_w2, v7_b2]; rfl

end Cert.KernelIdeal.Val

end
-- ==== Proof.LibPlainDot.lean ====
/-
  The host's matrix product read at one entry, at the ideal values (every float an extended real, every operation exact).

  A `dot_general` with the PLAIN dimension numbers — an [M, K] matrix times a [K, N] matrix, the left operand contracted on its
  axis 1 and the right on its axis 0, no batch axis — has at entry (p, q) the sum over the contraction coordinate k of
  lhs (p, k) · rhs (k, q), whatever the precision and the schedule key. The contraction index of such a product has one axis,
  and the sum over it is re-indexed through that axis's coordinate; the four coordinate facts are those of the same
  dimension numbers under a matrix unit's product.
-/
import Idealize.ShloMosaic.PureOps.Ideal.Laws
import Idealize.ShloMosaic.Lib.ValueIdx
import proofs.«126759_j52776558133695_1_alg».proof.Proof.LibPlainMatmul

noncomputable section

open scoped BigOperators
open Idealize.ShloMosaic Idealize.ShloMosaic.ValueIdx

namespace Cert.Lib.PlainDot

open Cert.Lib.PlainMatmul

variable {M K N : Nat}
variable (wf : DotDims.WF (⟨2, ![M, K]⟩ : Shape) ⟨2, ![K, N]⟩ ⟨2, ![M, N]⟩ [1] [0] [0] [1] [] [])

/-- The plain host product at entry (p, q): the sum over k of lhs (p, k) · rhs (k, q). -/
theorem apply_dims (prec : Option ContractPrecision) (sched : HostSchedule) {φ₁ φ₂ : FTy} (lhs : FVec Ideal ⟨2, ![M, K]⟩ φ₁)
    (rhs : FVec Ideal ⟨2, ![K, N]⟩ φ₂) (p : Fin M) (q : Fin N) :
    FloatOps.dotGeneral (dims wf) prec sched lhs rhs (ix2 p q) = ∑ k : Fin K, lhs (ix2 p k) * rhs (ix2 k q) := by
  rw [Ideal.dotGeneral_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) {φ₁ φ₂ : FTy} (lhs : FVec Ideal ⟨2, ![M, K]⟩ φ₁)
    (rhs : FVec Ideal ⟨2, ![K, N]⟩ φ₂) (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec sched lhs rhs p q

end Cert.Lib.PlainDot

end
-- ==== Proof.LibHostBias.lean ====
/-
  Two host layout idioms read at one entry.

  * A bias vector [C] made a one-row matrix [1, C] and then spread down R rows (two `broadcast_in_dim`s, the way a host
    program adds a bias to every row of a matrix): entry (p, k) of the result is entry k of the vector.
  * A scalar spread over a whole array (a `broadcast_in_dim` with no dimensions): every entry is the scalar.
-/
import Idealize.ShloMosaic.Lib.ValueIdx
import Idealize.ShloMosaic.Lib.Pipeline.Value

noncomputable section

open Idealize.ShloMosaic Idealize.ShloMosaic.ValueIdx

namespace Cert.Lib.HostBias

/-- A vector made a one-row matrix and spread down the rows, at entry (p, k): the vector's entry k. -/
theorem row_apply {α : Type} {R C : Nat} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (k : Fin C) :
    broadcastInDim ⟨2, ![R, C]⟩ ![0, 1] h2 (broadcastInDim ⟨2, ![1, C]⟩ ![1] h1 b) (ix2 p k) = b (ix1 k) := by
  have e2 : broadcastInDim ⟨2, ![R, C]⟩ ![0, 1] h2 (broadcastInDim ⟨2, ![1, C]⟩ ![1] h1 b) (ix2 p k)
      = broadcastInDim ⟨2, ![1, C]⟩ ![1] h1 b (ix2 (0 : Fin 1) k) :=
    broadcastInDim_apply ![0, 1] h2 _ (ix2 p k) (ix2 (0 : Fin 1) k) fun a => by
      match a with
      | ⟨0, _⟩ => rfl
      | ⟨1, _⟩ =>
        show k.val = if C = 1 then 0 else k.val
        split
        · have := k.isLt; omega
        · rfl
  have e1 : broadcastInDim ⟨2, ![1, C]⟩ ![1] h1 b (ix2 (0 : Fin 1) k) = b (ix1 k) :=
    broadcastInDim_apply ![1] h1 b (ix2 (0 : Fin 1) k) (ix1 k) fun a => by
      match a with
      | ⟨0, _⟩ =>
        show k.val = if C = 1 then 0 else k.val
        split
        · have := k.isLt; omega
        · rfl
  exact e2.trans e1

/-- A scalar spread over an array, at any entry: the scalar. -/
theorem splat_apply {α : Type} {t : Shape} (x : (⟨0, ![]⟩ : Shape).Idx → α) (h : (⟨0, ![]⟩ : Shape).BroadcastsInDim t ![])
    (j : t.Idx) : broadcastInDim t ![] h x j = x ix0 :=
  broadcastInDim_apply ![] h x j ix0 fun a => a.elim0

end Cert.Lib.HostBias

end
-- ==== Proof.RefValue.lean ====
/-
  The reference program's result as the model's new node states of its argument arrays.

  The reference computes each relation's messages with two host matrix products, adding each bias as a vector made a one-row
  matrix and spread down the rows, and the rectifier as the maximum with a splat of zero: entry by entry that is the layer's
  message network, the bias read as a one-row matrix. Its update network multiplies the concatenation [s | n] by the whole first
  weight matrix: the sum over the 128 columns of [s | n] is the sum over the 64 columns of s against the upper half of the
  matrix plus the sum over the 64 columns of n against the lower half. The gathers, the row-major re-readings and the
  scatter-adds are the same functions as in the model.
-/
import proofs.«126759_j52776558133695_1_alg».proof.Proof.Gen.ReferenceIdeal.Run
import proofs.«126759_j52776558133695_1_alg».proof.Proof.Model
import proofs.«126759_j52776558133695_1_alg».proof.Proof.LibPlainDot
import proofs.«126759_j52776558133695_1_alg».proof.Proof.LibHostBias
import Idealize.ShloMosaic.Lib.ValueLayout
import Idealize.ShloMosaic.Lib.Pipeline.Value

set_option maxRecDepth 16384

noncomputable section

namespace Cert.ReferenceIdeal.RefValue

open Cert.ReferenceIdeal Cert.Layer Cert.Lib Idealize.ShloMosaic Idealize.ShloMosaic.TcCoe
open Idealize.ShloMosaic.ValueIdx Idealize.SL.Sem
open Facts₀ Facts

/-- The reference's first message network — two host products, each with its bias spread down the rows, the rectifier between
    them — is the message network of the layer, the biases read as one-row matrices. -/
theorem mlp_eq64 (x : FVec Ideal S250000x64 .f32) (w1 w2 : FVec Ideal S64x64 .f32) (b1 b2 : FVec Ideal S64 .f32)
    (h : (⟨1, ![64]⟩ : Shape).ShapeCasts ⟨2, ![1, 64]⟩) :
    addf (Host.dotGeneral dot_S250000x64_S64x64_S250000x64_1_0_0_1_n_n none
        (maximumf (addf (Host.dotGeneral dot_S250000x64_S64x64_S250000x64_1_0_0_1_n_n none x w1)
            (broadcastInDim S250000x64 ![0, 1] bcast_S1x64_S250000x64_0_1 (broadcastInDim S1x64 ![1] bcast_S64_S1x64_1 b1)))
          (broadcastInDim S250000x64 ![] bcast_S_S250000x64 (constant (F := Ideal) S_ .f32 0x00000000#32))) w2)
      (broadcastInDim S250000x64 ![0, 1] bcast_S1x64_S250000x64_0_1 (broadcastInDim S1x64 ![1] bcast_S64_S1x64_1 b2))
    = mlp x w1 (shapeCast ⟨2, ![1, 64]⟩ b1 h) w2 (shapeCast ⟨2, ![1, 64]⟩ b2 h) := by
  funext i
  obtain ⟨p, q, rfl⟩ : ∃ (p : Fin 250000) (q : Fin 64), i = ix2 p q := ⟨i 0, i 1, eq_ix2 i⟩
  have hb : ∀ (b : FVec Ideal S64 .f32) (k : Fin 64),
      broadcastInDim S250000x64 ![0, 1] bcast_S1x64_S250000x64_0_1 (broadcastInDim S1x64 ![1] bcast_S64_S1x64_1 b) (ix2 p k) = b (ix1 k) :=
    fun b k => HostBias.row_apply b _ _ p k
  have hz : ∀ j : S250000x64.Idx,
      broadcastInDim S250000x64 ![] bcast_S_S250000x64 (constant (F := Ideal) S_ .f32 0x00000000#32) j = zero :=
    fun j => HostBias.splat_apply _ _ j
  rw [mlp_apply]
  unfold mlpAt denseAt
  simp only [addf_apply, maximumf_apply, PlainDot.apply dot_S250000x64_S64x64_S250000x64_1_0_0_1_n_n rfl rfl rfl rfl rfl rfl,
    hb, hz, shapeCast_a_1a_apply]

/-- The reference's second message network — two host products, each with its bias spread down the rows, the rectifier between
    them — is the message network of the layer, the biases read as one-row matrices. -/
theorem mlp_eq128 (x : FVec Ideal S250000x128 .f32) (w1 w2 : FVec Ideal S128x128 .f32) (b1 b2 : FVec Ideal S128 .f32)
    (h : (⟨1, ![128]⟩ : Shape).ShapeCasts ⟨2, ![1, 128]⟩) :
    addf (Host.dotGeneral dot_S250000x128_S128x128_S250000x128_1_0_0_1_n_n none
        (maximumf (addf (Host.dotGeneral dot_S250000x128_S128x128_S250000x128_1_0_0_1_n_n none x w1)
            (broadcastInDim S250000x128 ![0, 1] bcast_S1x128_S250000x128_0_1 (broadcastInDim S1x128 ![1] bcast_S128_S1x128_1 b1)))
          (broadcastInDim S250000x128 ![] bcast_S_S250000x128 (constant (F := Ideal) S_ .f32 0x00000000#32))) w2)
      (broadcastInDim S250000x128 ![0, 1] bcast_S1x128_S250000x128_0_1 (broadcastInDim S1x128 ![1] bcast_S128_S1x128_1 b2))
    = mlp x w1 (shapeCast ⟨2, ![1, 128]⟩ b1 h) w2 (shapeCast ⟨2, ![1, 128]⟩ b2 h) := by
  funext i
  obtain ⟨p, q, rfl⟩ : ∃ (p : Fin 250000) (q : Fin 128), i = ix2 p q := ⟨i 0, i 1, eq_ix2 i⟩
  have hb : ∀ (b : FVec Ideal S128 .f32) (k : Fin 128),
      broadcastInDim S250000x128 ![0, 1] bcast_S1x128_S250000x128_0_1 (broadcastInDim S1x128 ![1] bcast_S128_S1x128_1 b) (ix2 p k) = b (ix1 k) :=
    fun b k => HostBias.row_apply b _ _ p k
  have hz : ∀ j : S250000x128.Idx,
      broadcastInDim S250000x128 ![] bcast_S_S250000x128 (constant (F := Ideal) S_ .f32 0x00000000#32) j = zero :=
    fun j => HostBias.splat_apply _ _ j
  rw [mlp_apply]
  unfold mlpAt denseAt
  simp only [addf_apply, maximumf_apply, PlainDot.apply dot_S250000x128_S128x128_S250000x128_1_0_0_1_n_n rfl rfl rfl rfl rfl rfl,
    hb, hz, shapeCast_a_1a_apply]

/-- The reference's third message network — two host products, each with its bias spread down the rows, the rectifier between
    them — is the message network of the layer, the biases read as one-row matrices. -/
theorem mlp_eq192 (x : FVec Ideal S250000x192 .f32) (w1 w2 : FVec Ideal S192x192 .f32) (b1 b2 : FVec Ideal S192 .f32)
    (h : (⟨1, ![192]⟩ : Shape).ShapeCasts ⟨2, ![1, 192]⟩) :
    addf (Host.dotGeneral dot_S250000x192_S192x192_S250000x192_1_0_0_1_n_n none
        (maximumf (addf (Host.dotGeneral dot_S250000x192_S192x192_S250000x192_1_0_0_1_n_n none x w1)
            (broadcastInDim S250000x192 ![0, 1] bcast_S1x192_S250000x192_0_1 (broadcastInDim S1x192 ![1] bcast_S192_S1x192_1 b1)))
          (broadcastInDim S250000x192 ![] bcast_S_S250000x192 (constant (F := Ideal) S_ .f32 0x00000000#32))) w2)
      (broadcastInDim S250000x192 ![0, 1] bcast_S1x192_S250000x192_0_1 (broadcastInDim S1x192 ![1] bcast_S192_S1x192_1 b2))
    = mlp x w1 (shapeCast ⟨2, ![1, 192]⟩ b1 h) w2 (shapeCast ⟨2, ![1, 192]⟩ b2 h) := by
  funext i
  obtain ⟨p, q, rfl⟩ : ∃ (p : Fin 250000) (q : Fin 192), i = ix2 p q := ⟨i 0, i 1, eq_ix2 i⟩
  have hb : ∀ (b : FVec Ideal S192 .f32) (k : Fin 192),
      broadcastInDim S250000x192 ![0, 1] bcast_S1x192_S250000x192_0_1 (broadcastInDim S1x192 ![1] bcast_S192_S1x192_1 b) (ix2 p k) = b (ix1 k) :=
    fun b k => HostBias.row_apply b _ _ p k
  have hz : ∀ j : S250000x192.Idx,
      broadcastInDim S250000x192 ![] bcast_S_S250000x192 (constant (F := Ideal) S_ .f32 0x00000000#32) j = zero :=
    fun j => HostBias.splat_apply _ _ j
  rw [mlp_apply]
  unfold mlpAt denseAt
  simp only [addf_apply, maximumf_apply, PlainDot.apply dot_S250000x192_S192x192_S250000x192_1_0_0_1_n_n rfl rfl rfl rfl rfl rfl,
    hb, hz, shapeCast_a_1a_apply]

/-- The reference's update network — the concatenation [s | n] against the whole first weight matrix — is the layer's update
    network with that matrix as its upper and lower halves. -/
theorem upd_eq (s n : FVec Ideal S200000x64 .f32) (wu1 : FVec Ideal S128x128 .f32) (bu1 : FVec Ideal S128 .f32)
    (wu2 : FVec Ideal S128x64 .f32) (bu2 : FVec Ideal S64 .f32)
    (hs0 : (⟨2, ![128, 128]⟩ : Shape).Slices ![0, 0] ⟨2, ![64, 128]⟩) (hs1 : (⟨2, ![128, 128]⟩ : Shape).Slices ![64, 0] ⟨2, ![64, 128]⟩)
    (h128 : (⟨1, ![128]⟩ : Shape).ShapeCasts ⟨2, ![1, 128]⟩) (h64 : (⟨1, ![64]⟩ : Shape).ShapeCasts ⟨2, ![1, 64]⟩) :
    addf (Host.dotGeneral dot_S200000x128_S128x64_S200000x64_1_0_0_1_n_n none
        (maximumf (addf (Host.dotGeneral dot_S200000x128_S128x128_S200000x128_1_0_0_1_n_n none
              (concatenate S200000x128 1 [⟨S200000x64, s⟩, ⟨S200000x64, n⟩] concatenates_S200000x64_S200000x64_S200000x128_d1) wu1)
            (broadcastInDim S200000x128 ![0, 1] bcast_S1x128_S200000x128_0_1 (broadcastInDim S1x128 ![1] bcast_S128_S1x128_1 bu1)))
          (broadcastInDim S200000x128 ![] bcast_S_S200000x128 (constant (F := Ideal) S_ .f32 0x00000000#32))) wu2)
      (broadcastInDim S200000x64 ![0, 1] bcast_S1x64_S200000x64_0_1 (broadcastInDim S1x64 ![1] bcast_S64_S1x64_1 bu2))
    = upd s n (extractStridedSlice ⟨2, ![64, 128]⟩ ![0, 0] wu1 hs0) (extractStridedSlice ⟨2, ![64, 128]⟩ ![64, 0] wu1 hs1)
        (shapeCast ⟨2, ![1, 128]⟩ bu1 h128) wu2 (shapeCast ⟨2, ![1, 64]⟩ bu2 h64) := by
  funext i
  obtain ⟨p, q, rfl⟩ : ∃ (p : Fin 200000) (q : Fin 64), i = ix2 p q := ⟨i 0, i 1, eq_ix2 i⟩
  have hb1 : ∀ k : Fin 128,
      broadcastInDim S200000x128 ![0, 1] bcast_S1x128_S200000x128_0_1 (broadcastInDim S1x128 ![1] bcast_S128_S1x128_1 bu1) (ix2 p k) = bu1 (ix1 k) :=
    fun k => HostBias.row_apply bu1 _ _ p k
  have hb2 : ∀ k : Fin 64,
      broadcastInDim S200000x64 ![0, 1] bcast_S1x64_S200000x64_0_1 (broadcastInDim S1x64 ![1] bcast_S64_S1x64_1 bu2) (ix2 p k) = bu2 (ix1 k) :=
    fun k => HostBias.row_apply bu2 _ _ p k
  have hz : ∀ j : S200000x128.Idx,
      broadcastInDim S200000x128 ![] bcast_S_S200000x128 (constant (F := Ideal) S_ .f32 0x00000000#32) j = zero :=
    fun j => HostBias.splat_apply _ _ j
  -- the two halves of the first weight matrix, read at an entry
  have hwa : ∀ (j : Fin 64) (k : Fin 128),
      extractStridedSlice ⟨2, ![64, 128]⟩ ![0, 0] wu1 hs0 (ix2 j k) = wu1 (ix2 (Fin.castAdd 64 j) k) :=
    fun j k => slice2_axis0_apply 0 wu1 hs0 j k (Fin.castAdd 64 j) (Nat.zero_add _).symm
  have hwb : ∀ (j : Fin 64) (k : Fin 128),
      extractStridedSlice ⟨2, ![64, 128]⟩ ![64, 0] wu1 hs1 (ix2 j k) = wu1 (ix2 (Fin.natAdd 64 j) k) :=
    fun j k => slice2_axis0_apply 64 wu1 hs1 j k (Fin.natAdd 64 j) rfl
  -- the product with the concatenation, split along the contraction coordinate
  have hsplit : ∀ k : Fin 128,
      (∑ j : Fin 128, concatenate S200000x128 1 [⟨S200000x64, s⟩, ⟨S200000x64, n⟩] concatenates_S200000x64_S200000x64_S200000x128_d1 (ix2 p j) * wu1 (ix2 j k))
        = (∑ j : Fin 64, s (ix2 p j) * wu1 (ix2 (Fin.castAdd 64 j) k)) + ∑ j : Fin 64, n (ix2 p j) * wu1 (ix2 (Fin.natAdd 64 j) k) := fun k => by
    refine (sum_halves (H := 64) (fun j : Fin (64 + 64) =>
      concatenate S200000x128 1 [⟨S200000x64, s⟩, ⟨S200000x64, n⟩] concatenates_S200000x64_S200000x64_S200000x128_d1 (ix2 p j) * wu1 (ix2 j k))).trans ?_
    refine congrArg₂ (· + ·) (Finset.sum_congr rfl fun j _ => ?_) (Finset.sum_congr rfl fun j _ => ?_)
    · refine congrArg (· * wu1 (ix2 (Fin.castAdd 64 j) k)) ?_
      refine concatenate_pair_apply_left (1 : Fin 2) s n _ (ix2 p (Fin.castAdd 64 j)) rfl (ix2 p j) fun b => ?_
      match b with
      | ⟨0, _⟩ => rfl
      | ⟨1, _⟩ => rfl
    · refine congrArg (· * wu1 (ix2 (Fin.natAdd 64 j) k)) ?_
      refine concatenate_pair_apply_right (1 : Fin 2) s n _ (ix2 p (Fin.natAdd 64 j)) rfl rfl (ix2 p j) (fun b hb => ?_) ?_
      · match b with
        | ⟨0, _⟩ => rfl
        | ⟨1, _⟩ => exact absurd rfl hb
      · show j.val + 64 = 64 + j.val
        omega
  rw [upd_apply]
  unfold updAt
  simp only [addf_apply, maximumf_apply, PlainDot.apply dot_S200000x128_S128x64_S200000x64_1_0_0_1_n_n rfl rfl rfl rfl rfl rfl,
    PlainDot.apply dot_S200000x128_S128x128_S200000x128_1_0_0_1_n_n rfl rfl rfl rfl rfl rfl,
    hb1, hb2, hz, shapeCast_a_1a_apply, hwa, hwb, hsplit]

variable (m : (ℓ : Loc nD τ sig) → Buf (Elt Ideal) ℓ) (c : Dev nD)

/-- The reference's argument arrays as launched. -/
def args : Cert.KernelIdeal.Model.Args where
  nodes := m ((c : Thread nD τ).loc main_arg0)
  idx1 := m ((c : Thread nD τ).loc main_arg1)
  idx2 := m ((c : Thread nD τ).loc main_arg2)
  idx3 := m ((c : Thread nD τ).loc main_arg3)
  w1a := m ((c : Thread nD τ).loc main_arg4)
  b1a := m ((c : Thread nD τ).loc main_arg5)
  w2a := m ((c : Thread nD τ).loc main_arg6)
  b2a := m ((c : Thread nD τ).loc main_arg7)
  w1b := m ((c : Thread nD τ).loc main_arg8)
  b1b := m ((c : Thread nD τ).loc main_arg9)
  w2b := m ((c : Thread nD τ).loc main_arg10)
  b2b := m ((c : Thread nD τ).loc main_arg11)
  w1c := m ((c : Thread nD τ).loc main_arg12)
  b1c := m ((c : Thread nD τ).loc main_arg13)
  w2c := m ((c : Thread nD τ).loc main_arg14)
  b2c := m ((c : Thread nD τ).loc main_arg15)
  wu1 := m ((c : Thread nD τ).loc main_arg16)
  bu1 := m ((c : Thread nD τ).loc main_arg17)
  wu2 := m ((c : Thread nD τ).loc main_arg18)
  bu2 := m ((c : Thread nD τ).loc main_arg19)

/-- The reference's result term is the model's new node states of its launch arrays. -/
theorem result : Value.res_main_v83 (F := Ideal) m c = Cert.KernelIdeal.Model.out (args m c) := by
  unfold Value.res_main_v83
  rw [mlp_eq64 _ _ _ _ _ Cert.KernelIdeal.Facts₀.shapeCasts_S64_S1x64, mlp_eq128 _ _ _ _ _ Cert.KernelIdeal.Facts₀.shapeCasts_S128_S1x128,
    mlp_eq192 _ _ _ _ _ Cert.KernelIdeal.Facts₀.shapeCasts_S192_S1x192,
    upd_eq _ _ _ _ _ _ Cert.KernelIdeal.Facts₀.slices_S128x128_S64x128_0_0 Cert.KernelIdeal.Facts₀.slices_S128x128_S64x128_64_0
      Cert.KernelIdeal.Facts₀.shapeCasts_S128_S1x128 Cert.KernelIdeal.Facts₀.shapeCasts_S64_S1x64]
  rfl

end Cert.ReferenceIdeal.RefValue

end
-- ==== Proof.lean ====
/-
  The certificate of one relational message-passing step: a Pallas kernel program against its plain reference.

  Both programs compute, from the node states, three index arrays and the weights, the new node states
      relu ([ S | n ] · Wu1 + bu1) · Wu2 + bu2,
  where n is the node states and S the sum, over the three relations, of the scatter-added messages
      relu (x · W1 + b1) · W2 + b2     of the gathered rows x of each relation's ground atoms.
  The kernel program runs each relation's message network and the update network as a pipelined region over blocks of rows
  (its matrix operands rounded to a shorter float format on the way in, which at the ideal values does nothing), and splits
  the first update product along its contraction coordinate instead of concatenating; the reference runs the same networks as
  host matrix products. At the ideal values every entry of a network depends on one row of its input, so the regions' blocks
  assemble to the networks of the whole arrays, and a sum over the 128 columns of [ S | n ] is the sum over the columns of S
  plus the sum over the columns of n: both programs end at ONE function of the argument arrays (the model), gathers and
  scatter-adds included as they stand.

  The three frames: the kernel program's two are generated; the reference's is its generated run with the result dropped.
  The idealization rewrote nothing, so there is nothing to preserve.
-/
import proofs.«126759_j52776558133695_1_alg».proof.Defs
import proofs.«126759_j52776558133695_1_alg».proof.Proof.Gen.Kernel
import proofs.«126759_j52776558133695_1_alg».proof.Proof.Gen.Kernel.Frame
import proofs.«126759_j52776558133695_1_alg».proof.Proof.Gen.KernelIdeal
import proofs.«126759_j52776558133695_1_alg».proof.Proof.Gen.KernelIdeal.Frame
import proofs.«126759_j52776558133695_1_alg».proof.Proof.Gen.ReferenceIdeal
import proofs.«126759_j52776558133695_1_alg».proof.Proof.Gen.ReferenceIdeal.Run
import proofs.«126759_j52776558133695_1_alg».proof.Proof.Gen.Pre_finite_inputs
import proofs.«126759_j52776558133695_1_alg».proof.Proof.KernelRun
import proofs.«126759_j52776558133695_1_alg».proof.Proof.KernelValue
import proofs.«126759_j52776558133695_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the model's new node states of those arguments. -/
theorem algebraic : Cert.algebraic_KernelIdeal_ReferenceIdeal := by
  intro m ρ m' ρ' _ hagree
  refine ⟨fun c => Cert.KernelIdeal.Gen.W8 m ρ c (Proc.devRef .tc Cert.KernelIdeal.main_v60), Cert.KernelIdeal.Gen.run_named m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v83 (F := Ideal) m' c = Cert.KernelIdeal.Gen.W8 m ρ c (Proc.devRef .tc Cert.KernelIdeal.main_v60)
  rw [Cert.ReferenceIdeal.RefValue.result, Cert.KernelIdeal.Val.result]
  refine congrArg _ ?_
  unfold Cert.ReferenceIdeal.RefValue.args Cert.KernelIdeal.Val.args
  obtain ⟨h0, h1, h2, h3, h4, h5, h6, h7, h8, h9, h10, h11, h12, h13, h14, h15, h16, h17, h18, h19⟩ := hagree c
  rw [h0, h1, h2, h3, h4, h5, h6, h7, h8, h9, h10, h11, h12, h13, h14, h15, h16, h17, h18, h19]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
